-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_sqrt_d" .f32 0x3D13CD3A#32 ((524288 / 14529495 : ℝ) : EReal)
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S64x768 : Shape := ⟨2, ![64, 768]⟩
abbrev S64 : Shape := ⟨1, ![64]⟩
abbrev S32x768 : Shape := ⟨2, ![32, 768]⟩
abbrev S32 : Shape := ⟨1, ![32]⟩
abbrev S16x768 : Shape := ⟨2, ![16, 768]⟩
abbrev S16 : Shape := ⟨1, ![16]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_
  bcast_S_S32x768 : S_.BroadcastsInDim S32x768 (![] : Fin 0 → Fin S32x768.rank)
  reducesTo_S32x768_S_d0_1 : S32x768.ReducesTo [0, 1] S_
  bcast_S_S32 : S_.BroadcastsInDim S32 (![] : Fin 0 → Fin S32.rank)
  reducesTo_S32_S_d0 : S32.ReducesTo [0] S_
  bcast_S_S16x768 : S_.BroadcastsInDim S16x768 (![] : Fin 0 → Fin S16x768.rank)
  reducesTo_S16x768_S_d0_1 : S16x768.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16x768 .f32) (main_arg8 : FVec F S16x768 .f32) (main_arg9 : FVec F S16 .f32) (main_v33 : IVec S_ 1) : IVec S_ 1 :=
  let main_v34 : FVec F S16x768 .f32 := Host.absf main_arg7
  let main_cst_12 : FVec F S_ .f32 := constant S_ .f32 0x7F800000#32
  let main_v35 : FVec F S16x768 .f32 := broadcastInDim S16x768 ![] bcast_S_S16x768 main_cst_12
  let main_v36 : IVec S16x768 1 := cmpf .olt main_v34 main_v35
  let main_c_13 : IVec S_ 1 := constantI S_ 1 1#1
  let main_v37 : IVec S_ 1 := (fun x v => Host.reduce IntOp.andi x v reducesTo_S16x768_S_d0_1 h_S_) main_v36 main_c_13
  let main_v38 : IVec S_ 1 := andi main_v33 main_v37
  let main_v39 : FVec F S16x768 .f32 := Host.absf main_arg8
  let main_cst_14 : FVec F S_ .f32 := constant S_ .f32 0x7F800000#32
  let main_v40 : FVec F S16x768 .f32 := broadcastInDim S16x768 ![] bcast_S_S16x768 main_cst_14
  let main_v41 : IVec S16x768 1 := cmpf .olt main_v39 main_v40
  let main_c_15 : IVec S_ 1 := constantI S_ 1 1#1
  let main_v42 : IVec S_ 1 := (fun x v => Host.reduce IntOp.andi x v reducesTo_S16x768_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S32x768 .f32) (main_arg5 : FVec F S32x768 .f32) (main_arg6 : FVec F S32 .f32) (main_arg7 : FVec F S16x768 .f32) (main_arg8 : FVec F S16x768 .f32) (main_arg9 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x768 .f32 := Host.absf main_arg4
  let main_cst_6 : FVec F S_ .f32 := constant S_ .f32 0x7F800000#32
  let main_v20 : FVec F S32x768 .f32 := broadcastInDim S32x768 ![] bcast_S_S32x768 main_cst_6
  let main_v21 : IVec S32x768 1 := cmpf .olt main_v19 main_v20
  let main_c_7 : IVec S_ 1 := constantI S_ 1 1#1
  let main_v22 : IVec S_ 1 := (fun x v => Host.reduce IntOp.andi x v reducesTo_S32x768_S_d0_1 h_S_) main_v21 main_c_7
  let main_v23 : IVec S_ 1 := andi main_v18 main_v22
  let main_v24 : FVec F S32x768 .f32 := Host.absf main_arg5
  let main_cst_8 : FVec F S_ .f32 := constant S_ .f32 0x7F800000#32
  let main_v25 : FVec F S32x768 .f32 := broadcastInDim S32x768 ![] bcast_S_S32x768 main_cst_8
  let main_v26 : IVec S32x768 1 := cmpf .olt main_v24 main_v25
  let main_c_9 : IVec S_ 1 := constantI S_ 1 1#1
  let main_v27 : IVec S_ 1 := (fun x v => Host.reduce IntOp.andi x v reducesTo_S32x768_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S4x4096x768 .f32) (main_arg1 : FVec F S64x768 .f32) (main_arg2 : FVec F S64x768 .f32) (main_arg3 : FVec F S64 .f32) (main_arg4 : FVec F S32x768 .f32) (main_arg5 : FVec F S32x768 .f32) (main_arg6 : FVec F S32 .f32) (main_arg7 : FVec F S16x768 .f32) (main_arg8 : FVec F S16x768 .f32) (main_arg9 : FVec F S16 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S4x4096x768 : Shape := ⟨3, ![4, 4096, 768]⟩
abbrev S64x768 : Shape := ⟨2, ![64, 768]⟩
abbrev S64 : Shape := ⟨1, ![64]⟩
abbrev S32x768 : Shape := ⟨2, ![32, 768]⟩
abbrev S32 : Shape := ⟨1, ![32]⟩
abbrev S16x768 : Shape := ⟨2, ![16, 768]⟩
abbrev S16 : Shape := ⟨1, ![16]⟩
abbrev S16384x768 : Shape := ⟨2, ![16384, 768]⟩
abbrev S112x768 : Shape := ⟨2, ![112, 768]⟩
abbrev S_ : Shape := ⟨0, ![]⟩
abbrev S128x768 : Shape := ⟨2, ![128, 768]⟩
abbrev S112 : Shape := ⟨1, ![112]⟩
abbrev S128 : Shape := ⟨1, ![128]⟩
abbrev S1x128 : Shape := ⟨2, ![1, 128]⟩
abbrev S512x768 : Shape := ⟨2, ![512, 768]⟩
abbrev S512x128 : Shape := ⟨2, ![512, 128]⟩
abbrev S512 : Shape := ⟨1, ![512]⟩
abbrev S512x1 : Shape := ⟨2, ![512, 1]⟩

abbrev nBuf : Space → Nat
  | .hbm => 28
  | .vmem => 7
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64, .f32⟩
  | .hbm, ⟨4, _⟩ => ⟨S32x768, .f32⟩
  | .hbm, ⟨5, _⟩ => ⟨S32x768, .f32⟩
  | .hbm, ⟨6, _⟩ => ⟨S32, .f32⟩
  | .hbm, ⟨7, _⟩ => ⟨S16x768, .f32⟩
  | .hbm, ⟨8, _⟩ => ⟨S16x768, .f32⟩
  | .hbm, ⟨9, _⟩ => ⟨S16, .f32⟩
  | .hbm, ⟨10, _⟩ => ⟨S16384x768, .f32⟩
  | .hbm, ⟨11, _⟩ => ⟨S112x768, .f32⟩
  | .hbm, ⟨12, _⟩ => ⟨S112x768, .f32⟩
  | .hbm, ⟨13, _⟩ => ⟨S_, .i32⟩
  | .hbm, ⟨14, _⟩ => ⟨S_, .f32⟩
  | .hbm, ⟨15, _⟩ => ⟨S128x768, .f32⟩
  | .hbm, ⟨16, _⟩ => ⟨S128x768, .bf16⟩
  | .hbm, ⟨17, _⟩ => ⟨S_, .i32⟩
  | .hbm, ⟨18, _⟩ => ⟨S_, .f32⟩
  | .hbm, ⟨19, _⟩ => ⟨S128x768, .f32⟩
  | .hbm, ⟨20, _⟩ => ⟨S128x768, .bf16⟩
  | .hbm, ⟨21, _⟩ => ⟨S112, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S16384x768, .f32⟩
  | .hbm, ⟨27, _⟩ => ⟨S4x4096x768, .f32⟩
  | .local _ .vmem, ⟨0, _⟩ => ⟨S512x768, .f32⟩
  | .local _ .vmem, ⟨1, _⟩ => ⟨S512x768, .f32⟩
  | .local _ .vmem, ⟨2, _⟩ => ⟨S128x768, .bf16⟩
  | .local _ .vmem, ⟨3, _⟩ => ⟨S128x768, .bf16⟩
  | .local _ .vmem, ⟨4, _⟩ => ⟨S1x128, .f32⟩
  | .local _ .vmem, ⟨5, _⟩ => ⟨S512x768, .f32⟩
  | .local _ .vmem, ⟨6, _⟩ => ⟨S512x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_call2_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x768_S16384x768 : S4x4096x768.ShapeCasts S16384x768
  concatenates_S64x768_S32x768_S16x768_S112x768_d0 : Shape.Concatenates [S64x768, S32x768, S16x768] S112x768 0
  pads_S112x768_S128x768_0160_000 : S112x768.Pads (![0, 0] : Fin 2 → Nat) ![16, 0] ![0, 0] S128x768
  h_S_ : 0 < S_.numel
  bitsLt_bf16_f32 : FTy.bits .bf16 < FTy.bits .f32
  concatenates_S64_S32_S16_S112_d0 : Shape.Concatenates [S64, S32, S16] S112 0
  pads_S112_S128_0160 : S112.Pads (![0] : Fin 1 → Nat) ![16] ![0] S128
  shapeCasts_S128_S1x128 : S128.ShapeCasts S1x128
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  iota_S512x128_d1_w32 : S512x128.Iotas .tc 32 [1]
  reduces_S512x128_S512 : S512x128.Reduces [1] S512
  shapeCasts_S512_S512x1 : S512.ShapeCasts S512x1
  broadcasts_S512x1_S512x128 : S512x1.Broadcasts S512x128
  shapeCasts_S16384x768_S4x4096x768 : S16384x768.ShapeCasts S4x4096x768
  dot_S512x768_S128x768_S512x128_1_1_0_0_n_n_wf : DotDims.WF S512x768 S128x768 S512x128 [1] [1] [0] [0] [] []
  dot_S512x128_S128x768_S512x768_1_0_0_1_n_n_wf : DotDims.WF S512x128 S128x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S16384x768.size a
  hwx0_0 : ∀ i : grid0.Coords, EltTy.bits .f32 = 32 ∨ (Rect.block (s := S16384x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .bf16 = 32 ∨ (Rect.block (s := S128x768) S128x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x768.size a
  hwx0_2 : ∀ i : grid0.Coords, EltTy.bits .bf16 = 32 ∨ (Rect.block (s := S128x768) S128x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S16384x768.size a
  hwx0_4 : ∀ i : grid0.Coords, EltTy.bits .f32 = 32 ∨ (Rect.block (s := S16384x768) S512x768.size (cc0_transform_4 i) (hinb0_4 i)).WholeWords (EltTy.packing .f32)

variable [Facts₀]

def dot_S512x768_S128x768_S512x128_1_1_0_0_n_n : DotDims S512x768 S128x768 S512x128 where
  lhsContracting := [1]
  rhsContracting := [1]
  lhsNonContracting := [0]
  rhsNonContracting := [0]
  lhsBatch := []
  rhsBatch := []
  wf := dot_S512x768_S128x768_S512x128_1_1_0_0_n_n_wf
def dot_S512x128_S128x768_S512x768_1_0_0_1_n_n : DotDims S512x128 S128x768 S512x768 where
  lhsContracting := [1]
  rhsContracting := [0]
  lhsNonContracting := [0]
  rhsNonContracting := [1]
  lhsBatch := []
  rhsBatch := []
  wf := dot_S512x128_S128x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x768 : Shape := ⟨3, ![4, 4096, 768]⟩
abbrev S64x768 : Shape := ⟨2, ![64, 768]⟩
abbrev S64 : Shape := ⟨1, ![64]⟩
abbrev S32x768 : Shape := ⟨2, ![32, 768]⟩
abbrev S32 : Shape := ⟨1, ![32]⟩
abbrev S16x768 : Shape := ⟨2, ![16, 768]⟩
abbrev S16 : Shape := ⟨1, ![16]⟩
abbrev S_ : Shape := ⟨0, ![]⟩
abbrev S4x4096x64 : Shape := ⟨3, ![4, 4096, 64]⟩
abbrev S1x1x64 : Shape := ⟨3, ![1, 1, 64]⟩
abbrev S4x4096 : Shape := ⟨2, ![4, 4096]⟩
abbrev S4x4096x1 : Shape := ⟨3, ![4, 4096, 1]⟩
abbrev S4x4096x32 : Shape := ⟨3, ![4, 4096, 32]⟩
abbrev S1x1x32 : Shape := ⟨3, ![1, 1, 32]⟩
abbrev S4x4096x16 : Shape := ⟨3, ![4, 4096, 16]⟩
abbrev S1x1x16 : Shape := ⟨3, ![1, 1, 16]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64, .f32⟩
  | .hbm, ⟨4, _⟩ => ⟨S32x768, .f32⟩
  | .hbm, ⟨5, _⟩ => ⟨S32x768, .f32⟩
  | .hbm, ⟨6, _⟩ => ⟨S32, .f32⟩
  | .hbm, ⟨7, _⟩ => ⟨S16x768, .f32⟩
  | .hbm, ⟨8, _⟩ => ⟨S16x768, .f32⟩
  | .hbm, ⟨9, _⟩ => ⟨S16, .f32⟩
  | .hbm, ⟨10, _⟩ => ⟨S_, .f32⟩
  | .hbm, ⟨11, _⟩ => ⟨S4x4096x768, .f32⟩
  | .hbm, ⟨12, _⟩ => ⟨S4x4096x64, .f32⟩
  | .hbm, ⟨13, _⟩ => ⟨S_, .f32⟩
  | .hbm, ⟨14, _⟩ => ⟨S4x4096x64, .f32⟩
  | .hbm, ⟨15, _⟩ => ⟨S4x4096x64, .f32⟩
  | .hbm, ⟨16, _⟩ => ⟨S1x1x64, .f32⟩
  | .hbm, ⟨17, _⟩ => ⟨S4x4096x64, .f32⟩
  | .hbm, ⟨18, _⟩ => ⟨S4x4096x64, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x64, .f32⟩
  | .hbm, ⟨26, _⟩ => ⟨S4x4096x64, .f32⟩
  | .hbm, ⟨27, _⟩ => ⟨S4x4096x64, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x64, .f32⟩
  | .hbm, ⟨32, _⟩ => ⟨S4x4096x64, .f32⟩
  | .hbm, ⟨33, _⟩ => ⟨S4x4096x768, .f32⟩
  | .hbm, ⟨34, _⟩ => ⟨S_, .f32⟩
  | .hbm, ⟨35, _⟩ => ⟨S4x4096x768, .f32⟩
  | .hbm, ⟨36, _⟩ => ⟨S4x4096x768, .f32⟩
  | .hbm, ⟨37, _⟩ => ⟨S4x4096x768, .f32⟩
  | .hbm, ⟨38, _⟩ => ⟨S4x4096x32, .f32⟩
  | .hbm, ⟨39, _⟩ => ⟨S_, .f32⟩
  | .hbm, ⟨40, _⟩ => ⟨S4x4096x32, .f32⟩
  | .hbm, ⟨41, _⟩ => ⟨S4x4096x32, .f32⟩
  | .hbm, ⟨42, _⟩ => ⟨S1x1x32, .f32⟩
  | .hbm, ⟨43, _⟩ => ⟨S4x4096x32, .f32⟩
  | .hbm, ⟨44, _⟩ => ⟨S4x4096x32, .f32⟩
  | .hbm, ⟨45, _⟩ => ⟨S_, .f32⟩
  | .hbm, ⟨46, _⟩ => ⟨S4x4096, .f32⟩
  | .hbm, ⟨47, _⟩ => ⟨S_, .f32⟩
  | .hbm, ⟨48, _⟩ => ⟨S4x4096, .f32⟩
  | .hbm, ⟨49, _⟩ => ⟨S4x4096, .f32⟩
  | .hbm, ⟨50, _⟩ => ⟨S4x4096x1, .f32⟩
  | .hbm, ⟨51, _⟩ => ⟨S4x4096x32, .f32⟩
  | .hbm, ⟨52, _⟩ => ⟨S4x4096x32, .f32⟩
  | .hbm, ⟨53, _⟩ => ⟨S4x4096x32, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S4x4096x32, .f32⟩
  | .hbm, ⟨58, _⟩ => ⟨S4x4096x32, .f32⟩
  | .hbm, ⟨59, _⟩ => ⟨S4x4096x768, .f32⟩
  | .hbm, ⟨60, _⟩ => ⟨S_, .f32⟩
  | .hbm, ⟨61, _⟩ => ⟨S4x4096x768, .f32⟩
  | .hbm, ⟨62, _⟩ => ⟨S4x4096x768, .f32⟩
  | .hbm, ⟨63, _⟩ => ⟨S4x4096x768, .f32⟩
  | .hbm, ⟨64, _⟩ => ⟨S4x4096x16, .f32⟩
  | .hbm, ⟨65, _⟩ => ⟨S_, .f32⟩
  | .hbm, ⟨66, _⟩ => ⟨S4x4096x16, .f32⟩
  | .hbm, ⟨67, _⟩ => ⟨S4x4096x16, .f32⟩
  | .hbm, ⟨68, _⟩ => ⟨S1x1x16, .f32⟩
  | .hbm, ⟨69, _⟩ => ⟨S4x4096x16, .f32⟩
  | .hbm, ⟨70, _⟩ => ⟨S4x4096x16, .f32⟩
  | .hbm, ⟨71, _⟩ => ⟨S_, .f32⟩
  | .hbm, ⟨72, _⟩ => ⟨S4x4096, .f32⟩
  | .hbm, ⟨73, _⟩ => ⟨S_, .f32⟩
  | .hbm, ⟨74, _⟩ => ⟨S4x4096, .f32⟩
  | .hbm, ⟨75, _⟩ => ⟨S4x4096, .f32⟩
  | .hbm, ⟨76, _⟩ => ⟨S4x4096x1, .f32⟩
  | .hbm, ⟨77, _⟩ => ⟨S4x4096x16, .f32⟩
  | .hbm, ⟨78, _⟩ => ⟨S4x4096x16, .f32⟩
  | .hbm, ⟨79, _⟩ => ⟨S4x4096x16, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S4x4096x16, .f32⟩
  | .hbm, ⟨84, _⟩ => ⟨S4x4096x16, .f32⟩
  | .hbm, ⟨85, _⟩ => ⟨S4x4096x768, .f32⟩
  | .hbm, ⟨86, _⟩ => ⟨S_, .f32⟩
  | .hbm, ⟨87, _⟩ => ⟨S4x4096x768, .f32⟩
  | .hbm, ⟨88, _⟩ => ⟨S4x4096x768, .f32⟩
  | .hbm, ⟨89, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  bcast_S_S4x4096x768 : S_.BroadcastsInDim S4x4096x768 (![] : Fin 0 → Fin S4x4096x768.rank)
  bcast_S_S4x4096x64 : S_.BroadcastsInDim S4x4096x64 (![] : Fin 0 → Fin S4x4096x64.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  reducesTo_S4x4096x64_S4x4096_d2 : S4x4096x64.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x64_0_1_2 : S4x4096x1.BroadcastsInDim S4x4096x64 (![0, 1, 2] : Fin 3 → Fin S4x4096x64.rank)
  bcast_S_S4x4096x32 : S_.BroadcastsInDim S4x4096x32 (![] : Fin 0 → Fin S4x4096x32.rank)
  bcast_S32_S1x1x32_2 : S32.BroadcastsInDim S1x1x32 (![2] : Fin 1 → Fin S1x1x32.rank)
  bcast_S1x1x32_S4x4096x32_0_1_2 : S1x1x32.BroadcastsInDim S4x4096x32 (![0, 1, 2] : Fin 3 → Fin S4x4096x32.rank)
  reducesTo_S4x4096x32_S4x4096_d2 : S4x4096x32.ReducesTo [2] S4x4096
  bcast_S4x4096x1_S4x4096x32_0_1_2 : S4x4096x1.BroadcastsInDim S4x4096x32 (![0, 1, 2] : Fin 3 → Fin S4x4096x32.rank)
  bcast_S_S4x4096x16 : S_.BroadcastsInDim S4x4096x16 (![] : Fin 0 → Fin S4x4096x16.rank)
  bcast_S16_S1x1x16_2 : S16.BroadcastsInDim S1x1x16 (![2] : Fin 1 → Fin S1x1x16.rank)
  bcast_S1x1x16_S4x4096x16_0_1_2 : S1x1x16.BroadcastsInDim S4x4096x16 (![0, 1, 2] : Fin 3 → Fin S4x4096x16.rank)
  reducesTo_S4x4096x16_S4x4096_d2 : S4x4096x16.ReducesTo [2] S4x4096
  bcast_S4x4096x1_S4x4096x16_0_1_2 : S4x4096x1.BroadcastsInDim S4x4096x16 (![0, 1, 2] : Fin 3 → Fin S4x4096x16.rank)
  dot_S4x4096x768_S64x768_S4x4096x64_2_1_01_0_n_n_wf : DotDims.WF S4x4096x768 S64x768 S4x4096x64 [2] [1] [0, 1] [0] [] []
  dot_S4x4096x64_S64x768_S4x4096x768_2_0_01_1_n_n_wf : DotDims.WF S4x4096x64 S64x768 S4x4096x768 [2] [0] [0, 1] [1] [] []
  dot_S4x4096x768_S32x768_S4x4096x32_2_1_01_0_n_n_wf : DotDims.WF S4x4096x768 S32x768 S4x4096x32 [2] [1] [0, 1] [0] [] []
  dot_S4x4096x32_S32x768_S4x4096x768_2_0_01_1_n_n_wf : DotDims.WF S4x4096x32 S32x768 S4x4096x768 [2] [0] [0, 1] [1] [] []
  dot_S4x4096x768_S16x768_S4x4096x16_2_1_01_0_n_n_wf : DotDims.WF S4x4096x768 S16x768 S4x4096x16 [2] [1] [0, 1] [0] [] []
  dot_S4x4096x16_S16x768_S4x4096x768_2_0_01_1_n_n_wf : DotDims.WF S4x4096x16 S16x768 S4x4096x768 [2] [0] [0, 1] [1] [] []

variable [Facts₀]

def dot_S4x4096x768_S64x768_S4x4096x64_2_1_01_0_n_n : DotDims S4x4096x768 S64x768 S4x4096x64 where
  lhsContracting := [2]
  rhsContracting := [1]
  lhsNonContracting := [0, 1]
  rhsNonContracting := [0]
  lhsBatch := []
  rhsBatch := []
  wf := dot_S4x4096x768_S64x768_S4x4096x64_2_1_01_0_n_n_wf
def dot_S4x4096x64_S64x768_S4x4096x768_2_0_01_1_n_n : DotDims S4x4096x64 S64x768 S4x4096x768 where
  lhsContracting := [2]
  rhsContracting := [0]
  lhsNonContracting := [0, 1]
  rhsNonContracting := [1]
  lhsBatch := []
  rhsBatch := []
  wf := dot_S4x4096x64_S64x768_S4x4096x768_2_0_01_1_n_n_wf
def dot_S4x4096x768_S32x768_S4x4096x32_2_1_01_0_n_n : DotDims S4x4096x768 S32x768 S4x4096x32 where
  lhsContracting := [2]
  rhsContracting := [1]
  lhsNonContracting := [0, 1]
  rhsNonContracting := [0]
  lhsBatch := []
  rhsBatch := []
  wf := dot_S4x4096x768_S32x768_S4x4096x32_2_1_01_0_n_n_wf
def dot_S4x4096x32_S32x768_S4x4096x768_2_0_01_1_n_n : DotDims S4x4096x32 S32x768 S4x4096x768 where
  lhsContracting := [2]
  rhsContracting := [0]
  lhsNonContracting := [0, 1]
  rhsNonContracting := [1]
  lhsBatch := []
  rhsBatch := []
  wf := dot_S4x4096x32_S32x768_S4x4096x768_2_0_01_1_n_n_wf
def dot_S4x4096x768_S16x768_S4x4096x16_2_1_01_0_n_n : DotDims S4x4096x768 S16x768 S4x4096x16 where
  lhsContracting := [2]
  rhsContracting := [1]
  lhsNonContracting := [0, 1]
  rhsNonContracting := [0]
  lhsBatch := []
  rhsBatch := []
  wf := dot_S4x4096x768_S16x768_S4x4096x16_2_1_01_0_n_n_wf
def dot_S4x4096x16_S16x768_S4x4096x768_2_0_01_1_n_n : DotDims S4x4096x16 S16x768 S4x4096x768 where
  lhsContracting := [2]
  rhsContracting := [0]
  lhsNonContracting := [0, 1]
  rhsNonContracting := [1]
  lhsBatch := []
  rhsBatch := []
  wf := dot_S4x4096x16_S16x768_S4x4096x768_2_0_01_1_n_n_wf

class Facts : Prop extends Facts₀ where

variable [Facts]
-- ==== Proof.BitsEntry.lean ====
/-
  What each buffer of a core holds when the kernel's region is entered: the launch memory after the host lines that
  come before the region (the reshape of the query, the three concatenations, their paddings and conversions).
-/
import proofs.«102644_g850403525362_cont_9to1_m_493_4_alg».proof.Proof.Gen.Kernel.Launch

noncomputable section

namespace Cert.Kernel.Around

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The seven stretches of host lines before the region, in order. -/
abbrev before : List (List (HloOp τ sig (Elt F))) :=
  [hostOps0, hostOps0_1, hostOps0_2, hostOps0_3, hostOps0_4, hostOps0_5, hostOps0_6]

/-- Core `c`'s buffer contents at the region's entry, as a valuation. -/
abbrev V0 (c : Dev nD) : Valuation τ sig (Elt F) :=
  StableHlo.after (List.flatten [hostOps0, hostOps0_1, hostOps0_2, hostOps0_3, hostOps0_4, hostOps0_5, hostOps0_6]) (fun b => m (c, b))

/-- The same read at a TensorCore reference. -/
abbrev V (c : Dev nD) (b : Ref sig .tc) : Buf (Elt F) ((c : Thread nD τ).loc b) := V0 m c (Proc.devRef .tc b)

end Cert.Kernel.Around

end
-- ==== Proof.BitsStored.lean ====
/-
  The value the kernel body stores into its output block, as one function of the four blocks it loads: the query block
  `x0`, the padded keys `x1`, the padded values `x2` and the padded salience row `x3`.
-/
import proofs.«102644_g850403525362_cont_9to1_m_493_4_alg».proof.Proof.Gen.Kernel.Skeleton

noncomputable section

namespace Cert.Kernel.Body

open Cert.Kernel Cert.Kernel.Gen Idealize.ShloMosaic

variable {F : FTy → Type} [FloatOps F]

/-- The stored block: the scores of the query rows against all 128 lanes (`k0_pay2`), the three masked softmaxes added
    (`k0_pay3`, `k0_pay4`, `k0_pay5` and the rest inside `k0_pay1`), the level weight, and the product with the values. -/
def stored (x0 : Vec F S512x768 .f32) (x1 x2 : Vec F S128x768 .bf16) (x3 : Vec F S1x128 .f32) : Vec F S512x768 .f32 :=
  k0_pay1 (k0_pay2 x0 x1 x3) (iota .tc S512x128 32 [1] iota_S512x128_d1_w32) (k0_pay3 x0 x1 x3) (k0_pay4 x0 x1 x3)
    (k0_pay5 x0 x1 x3) x2

end Cert.Kernel.Body

end
-- ==== Proof.BitsFrame.lean ====
/-
  The kernel's program runs to its end, faults nowhere and leaves its ten argument arrays as launched; and
  what its run leaves in the output array.

  @main is seven stretches of host lines, the kernel's region over a grid of 32 points, and one host line after it. The
  host lines write only their own result buffers, never an argument. At grid point `t` the region hands the body block
  `t` of the query array (512 rows) and the whole key, value and salience arrays, each as the region found it whether or
  not it was fetched at that point, and the body leaves in the output's staging buffer one stored block: `Body.stored`
  of the four blocks it loaded. The region writes each such block back into the output array; nothing else of the
  unscoped memory changes but the results of the host lines.
-/
import proofs.«102644_g850403525362_cont_9to1_m_493_4_alg».proof.Proof.BitsEntry
import proofs.«102644_g850403525362_cont_9to1_m_493_4_alg».proof.Proof.BitsStored
import proofs.«102644_g850403525362_cont_9to1_m_493_4_alg».proof.Proof.Gen.Kernel.Launch
import proofs.«102644_g850403525362_cont_9to1_m_493_4_alg».proof.Proof.Gen.Kernel.Skeleton
import proofs.«102644_g850403525362_cont_9to1_m_493_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the seven stretches of host lines, the region, and the line after it: it reduces to the region continued
    by that line, the region entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-- The line after the region touches the region's arrays and the buffers that bypass it, nothing else. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region: only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- Every host line before the region writes one buffer, its own result, and that is no argument of @main. -/
local macro "before_keeps" : tactic => `(tactic|
  (simp only [hostOps0, hostOps0_1, hostOps0_2, hostOps0_3, hostOps0_4, hostOps0_5, hostOps0_6, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
   repeat' apply And.intro
   all_goals exact StableHlo.devRef_ne_of_ne (by decide)))
/-- The same of the line after the region. -/
local macro "tail_keeps" : tactic => `(tactic|
  (simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
   repeat' apply And.intro
   all_goals exact StableHlo.devRef_ne_of_ne (by decide)))

/-! ### A buffer nobody writes ends as launched -/

/-- A buffer that no window of the region stages, that no host line before the region writes and that the line after
    the region does not write holds, after that line, what it held at the launch. -/
theorem kept_of (dats : (p : Fin _) → (c : Dev nD) → Dat τ (Elt F) Unit ℕ (UR sig nD τ) ℕ (cfgs p) c) (c : Dev nD) (b : Ref sig .tc)
    (hne : ∀ w, Pipeline.arrRef spec0 w ≠ b)
    (hpre : (List.flatten [hostOps0, hostOps0_1, hostOps0_2, hostOps0_3, hostOps0_4, hostOps0_5, hostOps0_6] : List (HloOp τ sig (Elt F))).Forall
      fun op => Proc.devRef .tc b ∉ op.writes)
    (hpost : (List.flatten [hostOps1] : List (HloOp τ sig (Elt F))).Forall fun op => Proc.devRef .tc b ∉ op.writes) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp hpost),
    Pipeline.withArrays_of_ne _ c (V0 m c) _ b hne]
  exact StableHlo.after_of_forall_not_mem (b := Proc.devRef .tc b) _ _ (List.forall_iff_forall_mem.mp hpre)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- In a state the region's post describes — every array of the region at what its write-backs made it, every other
    unscoped buffer as the line after the region leaves it — each argument is as launched. -/
theorem kept_args (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (kept_of m dats c main_arg0 (by decide) (by before_keeps) (by tail_keeps)),
    ((h c).2 main_arg1 (Pipeline.mem_restRefs_of main_arg1 (by decide) (by decide))).trans (kept_of m dats c main_arg1 (by decide) (by before_keeps) (by tail_keeps)),
    ((h c).2 main_arg2 (Pipeline.mem_restRefs_of main_arg2 (by decide) (by decide))).trans (kept_of m dats c main_arg2 (by decide) (by before_keeps) (by tail_keeps)),
    ((h c).2 main_arg3 (Pipeline.mem_restRefs_of main_arg3 (by decide) (by decide))).trans (kept_of m dats c main_arg3 (by decide) (by before_keeps) (by tail_keeps)),
    ((h c).2 main_arg4 (Pipeline.mem_restRefs_of main_arg4 (by decide) (by decide))).trans (kept_of m dats c main_arg4 (by decide) (by before_keeps) (by tail_keeps)),
    ((h c).2 main_arg5 (Pipeline.mem_restRefs_of main_arg5 (by decide) (by decide))).trans (kept_of m dats c main_arg5 (by decide) (by before_keeps) (by tail_keeps)),
    ((h c).2 main_arg6 (Pipeline.mem_restRefs_of main_arg6 (by decide) (by decide))).trans (kept_of m dats c main_arg6 (by decide) (by before_keeps) (by tail_keeps)),
    ((h c).2 main_arg7 (Pipeline.mem_restRefs_of main_arg7 (by decide) (by decide))).trans (kept_of m dats c main_arg7 (by decide) (by before_keeps) (by tail_keeps)),
    ((h c).2 main_arg8 (Pipeline.mem_restRefs_of main_arg8 (by decide) (by decide))).trans (kept_of m dats c main_arg8 (by decide) (by before_keeps) (by tail_keeps)),
    ((h c).2 main_arg9 (Pipeline.mem_restRefs_of main_arg9 (by decide) (by decide))).trans (kept_of m dats c main_arg9 (by decide) (by before_keeps) (by tail_keeps))⟩

/-- So a run to the region's post is a run after which each argument is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept_args m dats r h c) h

/-! ## The body's accesses -/

/-- The whole query block, the whole key (and value) array, the whole salience row. -/
abbrev rQ : Rect S512x768 := Rect.unit (s := S512x768) ![0, 0] S512x768.size inb_S512x768_S512x768_0_0
abbrev rK : Rect S128x768 := Rect.unit (s := S128x768) ![0, 0] S128x768.size inb_S128x768_S128x768_0_0
abbrev rB : Rect S1x128 := Rect.unit (s := S1x128) ![0, 0] S1x128.size inb_S1x128_S1x128_0_0

/-! ## What the body leaves in the output window's buffer -/

/-- The output's staging buffer after the body, from the four input blocks: its one store, of `Body.stored`. -/
def out4 (x0 : Vec F S512x768 .f32) (x1 x2 : Vec F S128x768 .bf16) (x3 : Vec F S1x128 .f32) : Vec F S512x768 .f32 :=
  View.canon [⟨rQ, Body.stored (View.ld x0 rQ) (View.ld x1 rK) (View.ld x2 rK) (View.ld x3 rB)⟩]

/-- The one store covers the buffer. -/
theorem cover4 (p0 : Vec F S512x768 .f32) (y : S512x768.Idx) :
    ∃ pc ∈ ([⟨rQ, p0⟩] : List (View.Piece (Elt F) S512x768 .f32)), y ∈ pc.1.set :=
  View.cover_of_tiled [⟨rQ, p0⟩] S512x768.size (by rfl) y

/-! ## The body's triple -/

set_option maxRecDepth 65536 in
set_option maxHeartbeats 4000000 in
/-- The kernel body on whole staging memrefs, the four inputs' at contents `x0 … x3` and the output's at anything, runs
    to the continuation holding the inputs' as they were and the output's at `out4` of the inputs'. -/
theorem sound_kernel (c : Dev nD) (E : Set ℕ) (i : grid0.Coords)
    (arg1 : Memref sig .tc .vmem S512x768 .f32) (harg1 : arg1.IsWhole) (arg2 : Memref sig .tc .vmem S128x768 .bf16) (harg2 : arg2.IsWhole)
    (arg3 : Memref sig .tc .vmem S128x768 .bf16) (harg3 : arg3.IsWhole) (arg4 : Memref sig .tc .vmem S1x128 .f32) (harg4 : arg4.IsWhole)
    (arg5 : Memref sig .tc .vmem S512x768 .f32) (harg5 : arg5.IsWhole)
    (x0 : Vec F S512x768 .f32) (x1 x2 : Vec F S128x768 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- what the one covering store left reads as its canon; the part's returned values are its payloads, each load the
  -- loaded buffer through its rectangle
  rw [View.read_writes_eq_canon _ _ _ (cover4 _)]
  dsimp only
  sl_unfold_words
  simp only [View.readAt_eq_ld]
  unfold out4 Body.stored
  rfl

/-! ## The region's proof data -/

/-- On core `c`: the arrays as the region finds them; after the body at point `t` each input's buffer at its block and
    the output's at `out4` of the four input blocks; the scoped rest and the generator register untouched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

/-- The proof data's arrays are the region-entry contents (projected, so that the fold over the host lines is never opened). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

/-- Each input's current staging buffer holds its block at every point, fetched there or not: where it is not
    fetched its block index has not moved since the point before, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any float values: every weakly fair execution of @main terminates, and every
    final state has each array of the region at what its write-backs made it and every other unscoped buffer as the line
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to its end and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.Kernel.Around

end
-- ==== Proof.Entry.lean ====
/-
  What each buffer of a core holds when the kernel's region is entered: the launch memory after the host lines that
  come before the region (the reshape of the query, the three concatenations, their paddings and conversions).
-/
import proofs.«102644_g850403525362_cont_9to1_m_493_4_alg».proof.Proof.Gen.KernelIdeal.Launch

noncomputable section

namespace Cert.KernelIdeal.Around

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ)

/-- The seven stretches of host lines before the region, in order. -/
abbrev before : List (List (HloOp τ sig (Elt F))) :=
  [hostOps0, hostOps0_1, hostOps0_2, hostOps0_3, hostOps0_4, hostOps0_5, hostOps0_6]

/-- Core `c`'s buffer contents at the region's entry, as a valuation. -/
abbrev V0 (c : Dev nD) : Valuation τ sig (Elt F) :=
  StableHlo.after (List.flatten [hostOps0, hostOps0_1, hostOps0_2, hostOps0_3, hostOps0_4, hostOps0_5, hostOps0_6]) (fun b => m (c, b))

/-- The same read at a TensorCore reference. -/
abbrev V (c : Dev nD) (b : Ref sig .tc) : Buf (Elt F) ((c : Thread nD τ).loc b) := V0 m c (Proc.devRef .tc b)

end Cert.KernelIdeal.Around

end
-- ==== Proof.Stored.lean ====
/-
  The value the kernel body stores into its output block, as one function of the four blocks it loads: the query block
  `x0`, the padded keys `x1`, the padded values `x2` and the padded salience row `x3`.
-/
import proofs.«102644_g850403525362_cont_9to1_m_493_4_alg».proof.Proof.Gen.KernelIdeal.Skeleton

noncomputable section

namespace Cert.KernelIdeal.Body

open Cert.KernelIdeal Cert.KernelIdeal.Gen Idealize.ShloMosaic

variable {F : FTy → Type} [FloatOps F] [Named F]

/-- The stored block: the scores of the query rows against all 128 lanes (`k0_pay2`), the three masked softmaxes added
    (`k0_pay3`, `k0_pay4`, `k0_pay5` and the rest inside `k0_pay1`), the level weight, and the product with the values. -/
def stored (x0 : Vec F S512x768 .f32) (x1 x2 : Vec F S128x768 .bf16) (x3 : Vec F S1x128 .f32) : Vec F S512x768 .f32 :=
  k0_pay1 (k0_pay2 x0 x1 x3) (iota .tc S512x128 32 [1] iota_S512x128_d1_w32) (k0_pay3 x0 x1 x3) (k0_pay4 x0 x1 x3)
    (k0_pay5 x0 x1 x3) x2

end Cert.KernelIdeal.Body

end
-- ==== Proof.IdealFrame.lean ====
/-
  The idealized kernel's program runs to its end, faults nowhere and leaves its ten argument arrays as launched; and
  what its run leaves in the output array.

  @main is seven stretches of host lines, the kernel's region over a grid of 32 points, and one host line after it. The
  host lines write only their own result buffers, never an argument. At grid point `t` the region hands the body block
  `t` of the query array (512 rows) and the whole key, value and salience arrays, each as the region found it whether or
  not it was fetched at that point, and the body leaves in the output's staging buffer one stored block: `Body.stored`
  of the four blocks it loaded. The region writes each such block back into the output array; nothing else of the
  unscoped memory changes but the results of the host lines.
-/
import proofs.«102644_g850403525362_cont_9to1_m_493_4_alg».proof.Proof.Entry
import proofs.«102644_g850403525362_cont_9to1_m_493_4_alg».proof.Proof.Stored
import proofs.«102644_g850403525362_cont_9to1_m_493_4_alg».proof.Proof.Gen.KernelIdeal.Launch
import proofs.«102644_g850403525362_cont_9to1_m_493_4_alg».proof.Proof.Gen.KernelIdeal.Skeleton
import proofs.«102644_g850403525362_cont_9to1_m_493_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the seven stretches of host lines, the region, and the line after it: it reduces to the region continued
    by that line, the region entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-- The line after the region touches the region's arrays and the buffers that bypass it, nothing else. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the region: only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- Every host line before the region writes one buffer, its own result, and that is no argument of @main. -/
local macro "before_keeps" : tactic => `(tactic|
  (simp only [hostOps0, hostOps0_1, hostOps0_2, hostOps0_3, hostOps0_4, hostOps0_5, hostOps0_6, StableHlo.TRef.unary, StableHlo.TRef.binary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
   repeat' apply And.intro
   all_goals exact StableHlo.devRef_ne_of_ne (by decide)))
/-- The same of the line after the region. -/
local macro "tail_keeps" : tactic => `(tactic|
  (simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
   repeat' apply And.intro
   all_goals exact StableHlo.devRef_ne_of_ne (by decide)))

/-! ### A buffer nobody writes ends as launched -/

/-- A buffer that no window of the region stages, that no host line before the region writes and that the line after
    the region does not write holds, after that line, what it held at the launch. -/
theorem kept_of (dats : (p : Fin _) → (c : Dev nD) → Dat τ (Elt F) Unit ℕ (UR sig nD τ) ℕ (cfgs p) c) (c : Dev nD) (b : Ref sig .tc)
    (hne : ∀ w, Pipeline.arrRef spec0 w ≠ b)
    (hpre : (List.flatten [hostOps0, hostOps0_1, hostOps0_2, hostOps0_3, hostOps0_4, hostOps0_5, hostOps0_6] : List (HloOp τ sig (Elt F))).Forall
      fun op => Proc.devRef .tc b ∉ op.writes)
    (hpost : (List.flatten [hostOps1] : List (HloOp τ sig (Elt F))).Forall fun op => Proc.devRef .tc b ∉ op.writes) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp hpost),
    Pipeline.withArrays_of_ne _ c (V0 m c) _ b hne]
  exact StableHlo.after_of_forall_not_mem (b := Proc.devRef .tc b) _ _ (List.forall_iff_forall_mem.mp hpre)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- In a state the region's post describes — every array of the region at what its write-backs made it, every other
    unscoped buffer as the line after the region leaves it — each argument is as launched. -/
theorem kept_args (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (kept_of m dats c main_arg0 (by decide) (by before_keeps) (by tail_keeps)),
    ((h c).2 main_arg1 (Pipeline.mem_restRefs_of main_arg1 (by decide) (by decide))).trans (kept_of m dats c main_arg1 (by decide) (by before_keeps) (by tail_keeps)),
    ((h c).2 main_arg2 (Pipeline.mem_restRefs_of main_arg2 (by decide) (by decide))).trans (kept_of m dats c main_arg2 (by decide) (by before_keeps) (by tail_keeps)),
    ((h c).2 main_arg3 (Pipeline.mem_restRefs_of main_arg3 (by decide) (by decide))).trans (kept_of m dats c main_arg3 (by decide) (by before_keeps) (by tail_keeps)),
    ((h c).2 main_arg4 (Pipeline.mem_restRefs_of main_arg4 (by decide) (by decide))).trans (kept_of m dats c main_arg4 (by decide) (by before_keeps) (by tail_keeps)),
    ((h c).2 main_arg5 (Pipeline.mem_restRefs_of main_arg5 (by decide) (by decide))).trans (kept_of m dats c main_arg5 (by decide) (by before_keeps) (by tail_keeps)),
    ((h c).2 main_arg6 (Pipeline.mem_restRefs_of main_arg6 (by decide) (by decide))).trans (kept_of m dats c main_arg6 (by decide) (by before_keeps) (by tail_keeps)),
    ((h c).2 main_arg7 (Pipeline.mem_restRefs_of main_arg7 (by decide) (by decide))).trans (kept_of m dats c main_arg7 (by decide) (by before_keeps) (by tail_keeps)),
    ((h c).2 main_arg8 (Pipeline.mem_restRefs_of main_arg8 (by decide) (by decide))).trans (kept_of m dats c main_arg8 (by decide) (by before_keeps) (by tail_keeps)),
    ((h c).2 main_arg9 (Pipeline.mem_restRefs_of main_arg9 (by decide) (by decide))).trans (kept_of m dats c main_arg9 (by decide) (by before_keeps) (by tail_keeps))⟩

/-- So a run to the region's post is a run after which each argument is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept_args m dats r h c) h

/-! ## The body's accesses -/

/-- The whole query block, the whole key (and value) array, the whole salience row. -/
abbrev rQ : Rect S512x768 := Rect.unit (s := S512x768) ![0, 0] S512x768.size inb_S512x768_S512x768_0_0
abbrev rK : Rect S128x768 := Rect.unit (s := S128x768) ![0, 0] S128x768.size inb_S128x768_S128x768_0_0
abbrev rB : Rect S1x128 := Rect.unit (s := S1x128) ![0, 0] S1x128.size inb_S1x128_S1x128_0_0

/-! ## What the body leaves in the output window's buffer -/

/-- The output's staging buffer after the body, from the four input blocks: its one store, of `Body.stored`. -/
def out4 (x0 : Vec F S512x768 .f32) (x1 x2 : Vec F S128x768 .bf16) (x3 : Vec F S1x128 .f32) : Vec F S512x768 .f32 :=
  View.canon [⟨rQ, Body.stored (View.ld x0 rQ) (View.ld x1 rK) (View.ld x2 rK) (View.ld x3 rB)⟩]

/-- The one store covers the buffer. -/
theorem cover4 (p0 : Vec F S512x768 .f32) (y : S512x768.Idx) :
    ∃ pc ∈ ([⟨rQ, p0⟩] : List (View.Piece (Elt F) S512x768 .f32)), y ∈ pc.1.set :=
  View.cover_of_tiled [⟨rQ, p0⟩] S512x768.size (by rfl) y

/-! ## The body's triple -/

set_option maxRecDepth 65536 in
set_option maxHeartbeats 4000000 in
/-- The kernel body on whole staging memrefs, the four inputs' at contents `x0 … x3` and the output's at anything, runs
    to the continuation holding the inputs' as they were and the output's at `out4` of the inputs'. -/
theorem sound_kernel (c : Dev nD) (E : Set ℕ) (i : grid0.Coords)
    (arg1 : Memref sig .tc .vmem S512x768 .f32) (harg1 : arg1.IsWhole) (arg2 : Memref sig .tc .vmem S128x768 .bf16) (harg2 : arg2.IsWhole)
    (arg3 : Memref sig .tc .vmem S128x768 .bf16) (harg3 : arg3.IsWhole) (arg4 : Memref sig .tc .vmem S1x128 .f32) (harg4 : arg4.IsWhole)
    (arg5 : Memref sig .tc .vmem S512x768 .f32) (harg5 : arg5.IsWhole)
    (x0 : Vec F S512x768 .f32) (x1 x2 : Vec F S128x768 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- what the one covering store left reads as its canon; the part's returned values are its payloads, each load the
  -- loaded buffer through its rectangle
  rw [View.read_writes_eq_canon _ _ _ (cover4 _)]
  dsimp only
  sl_unfold_words
  simp only [View.readAt_eq_ld]
  unfold out4 Body.stored
  rfl

/-! ## The region's proof data -/

/-- On core `c`: the arrays as the region finds them; after the body at point `t` each input's buffer at its block and
    the output's at `out4` of the four input blocks; the scoped rest and the generator register untouched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

/-- The proof data's arrays are the region-entry contents (projected, so that the fold over the host lines is never opened). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

/-- Each input's current staging buffer holds its block at every point, fetched there or not: where it is not
    fetched its block index has not moved since the point before, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any float values: every weakly fair execution of @main terminates, and every
    final state has each array of the region at what its write-backs made it and every other unscoped buffer as the line
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to its end and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.KernelIdeal.Around

end
-- ==== Proof.KernelValue.lean ====
/-
  What the kernel's run leaves in its output array, and in the result buffer after the line that follows the region.

  Grid point `t` stores into block `t` of the output array (rows `512 * t` to `512 * t + 511`, all 768 features) the
  value `Body.stored` of query block `t` and the whole key, value and salience arrays. The 32 blocks tile the array, so
  after the run row `R` of the output array is row `R % 512` of the value stored at point `R / 512`. Read at an index,
  query block `t` is rows `512 * t + r` of the query array and the three other windows are their arrays themselves.
-/
import proofs.«102644_g850403525362_cont_9to1_m_493_4_alg».proof.Proof.IdealFrame
import Idealize.ShloMosaic.Lib.Pipeline.Value
import Idealize.ShloMosaic.Lib.ValueIdx

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]
variable (m : (ℓ : Loc nD τ sig) → Buf (Elt F) ℓ) (ρ : Dev nD → PrngReg)

theorem hz : (![0, 0] : Fin 2 → Nat) = fun _ => 0 := funext fun a => by fin_cases a <;> rfl

/-- The one store covers the buffer and every load is of a whole buffer: the buffer ends at the stored value of the
    loaded buffers themselves. -/
theorem out4_eq (x0 : Vec F S512x768 .f32) (x1 x2 : Vec F S128x768 .bf16) (x3 : Vec F S1x128 .f32) :
    out4 x0 x1 x2 x3 = Body.stored x0 x1 x2 x3 := by
  unfold out4
  rw [View.canon_unit_zero hz]
  simp only [View.ld_unit_zero (S := S512x768) hz, View.ld_unit_zero (S := S128x768) hz, View.ld_unit_zero (S := S1x128) hz]

/-- The printed index maps, decided over the grid: the output and the query windows are at block `(t, 0)`, the three
    whole windows at block `(0, 0)`. -/
theorem idx_facts : ∀ t : Fin cfg0.N, win0_4.index t (0 : Fin 2) = t.val ∧ win0_4.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The output array as one function -/

/-- The value point `t` stores. -/
def blockVal (c : Dev nD) (t : Fin cfg0.N) : Vec F S512x768 .f32 :=
  Body.stored (iblk m c 0 t) (iblk m c 1 t) (iblk m c 2 t) (iblk m c 3 t)

/-- The point whose block holds row `i 0`, -/
def pointOf (i : S16384x768.Idx) : Fin cfg0.N :=
  ⟨(i 0).val / 512, by show _ < grid0.N; rw [N_0]; have h : (i 0).val < 16384 := (i 0).isLt; omega⟩

/-- and the index inside that block. -/
def within (i : S16384x768.Idx) : S512x768.Idx :=
  ix2 (⟨(i 0).val % 512, Nat.mod_lt _ (by decide)⟩ : Fin 512) (⟨(i 1).val, (i 1).isLt⟩ : Fin 768)

/-- The output array after the run, as one function of the index. -/
def G (c : Dev nD) : S16384x768.Idx → Elt F .f32 := fun i => blockVal m c (pointOf i) (within i)

/-- What point `t` writes back is block `t` of `G`. -/
theorem flushed_eq (c : Dev nD) (t : Fin cfg0.N) :
    (dats m 0 c).flushed 4 t = ((cfg0.win 4).blk t).view.read (Elt F) (G m c) := by
  show (cfg0.win 4).cut (grid0.coords t) ((dats m 0 c).after 4 t) = _
  rw [after4, out4_eq]
  obtain ⟨e0, e1, -⟩ := idx_facts t
  funext j
  show blockVal m c t j = G m c (((cfg0.win 4).blk t).view.emb j)
  have hp : pointOf (((cfg0.win 4).blk t).view.emb j) = t := Fin.ext (by
    show (win0_4.index t (0 : Fin 2) * 512 + 1 * (j 0).val) / 512 = t.val
    have hj : (j 0).val < 512 := (j 0).isLt
    rw [e0]; omega)
  have hw : within (((cfg0.win 4).blk t).view.emb j) = j := by
    funext a; apply Fin.ext
    match a with
    | ⟨0, _⟩ =>
      show (win0_4.index t (0 : Fin 2) * 512 + 1 * (j 0).val) % 512 = (j 0).val
      have hj : (j 0).val < 512 := (j 0).isLt
      rw [e0]; omega
    | ⟨1, _⟩ =>
      show win0_4.index t (1 : Fin 2) * 768 + 1 * (j 1).val = (j 1).val
      rw [e1]; omega
  unfold G
  rw [hp, hw]

/-- An index of the output array is in point `t`'s block iff each coordinate is in the block's range on its axis. -/
theorem mem_blk (t : Fin cfg0.N) (i : S16384x768.Idx) :
    i ∈ ((cfg0.win 4).blk t).view.set ↔ ∀ a : Fin 2, win0_4.index t a * S512x768.size a ≤ (i a).val
      ∧ (i a).val < win0_4.index t a * S512x768.size a + S512x768.size a := by
  show i ∈ ((View.whole main_v10).slice (win0_4.rect t)).set ↔ _
  rw [View.set_slice_whole, Rect.mem_set_unit]
  exact Iff.rfl

/-- Every index of the output array is in the block of the point `pointOf` names. -/
theorem cover (i : S16384x768.Idx) :
    ∃ t : Fin cfg0.N, (cfg0.win 4).flush t = true ∧ i ∈ ((cfg0.win 4).blk t).view.set := by
  refine ⟨pointOf i, flush0_4 _, ?_⟩
  rw [mem_blk]
  obtain ⟨e0, e1, -⟩ := idx_facts (pointOf i)
  have h0 : (i 0).val < 16384 := (i 0).isLt
  have h1 : (i 1).val < 768 := (i 1).isLt
  have hp : (pointOf i).val = (i 0).val / 512 := rfl
  intro a
  match a with
  | ⟨0, _⟩ =>
    show win0_4.index (pointOf i) (0 : Fin 2) * 512 ≤ (i 0).val ∧ (i 0).val < win0_4.index (pointOf i) (0 : Fin 2) * 512 + 512
    rw [e0, hp]; omega
  | ⟨1, _⟩ =>
    show win0_4.index (pointOf i) (1 : Fin 2) * 768 ≤ (i 1).val ∧ (i 1).val < win0_4.index (pointOf i) (1 : Fin 2) * 768 + 768
    rw [e1]; omega

/-- The output array after the run. -/
theorem final4 (c : Dev nD) : (dats m 0 c).arrAt 4 cfg0.N = G m c :=
  (dats m 0 c).arrAt_eq_of_cover 4 (G m c) (fun t _ => flushed_eq m c t) cover

/-! ## The input blocks read at an index -/

/-- Query block `t`: row `r` is row `512 * t + r` of the query array as the region finds it. -/
theorem iblk0_apply (c : Dev nD) (t : Fin cfg0.N) (r : Fin 512) (e : Fin 768) :
    (iblk m c 0 t : S512x768.Idx → Elt F .f32) (ix2 r e)
      = (V m c main_v0 : S16384x768.Idx → Elt F .f32)
          (ix2 (⟨512 * t.val + r.val, by have h : t.val < grid0.N := t.isLt; rw [N_0] at h; have hr := r.isLt; omega⟩ : Fin 16384) e) := by
  obtain ⟨-, -, e0, e1, -⟩ := idx_facts t
  unfold iblk
  rw [View.read_apply]
  show V m c main_v0 (((cfg0.win 0).blk t).view.emb (ix2 r e)) = _
  refine congrArg (V m c main_v0) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 768 + 1 * e.val = e.val; rw [e1]; omega

/-- The key window is the key array as the region finds it. -/
theorem iblk1_apply (c : Dev nD) (t : Fin cfg0.N) (j : Fin 128) (e : Fin 768) :
    (iblk m c 1 t : S128x768.Idx → Elt F .bf16) (ix2 j e) = (V m c main_v4 : S128x768.Idx → Elt F .bf16) (ix2 j e) := by
  obtain ⟨-, -, -, -, e0, e1, -⟩ := idx_facts t
  unfold iblk
  rw [View.read_apply]
  show V m c main_v4 (((cfg0.win 1).blk t).view.emb (ix2 j e)) = _
  refine congrArg (V m c main_v4) (funext fun a => Fin.ext ?_)
  match a with
  | ⟨0, _⟩ => show win0_1.index t (0 : Fin 2) * 128 + 1 * j.val = j.val; rw [e0]; omega
  | ⟨1, _⟩ => show win0_1.index t (1 : Fin 2) * 768 + 1 * e.val = e.val; rw [e1]; omega

/-- The value window is the value array as the region finds it. -/
theorem iblk2_apply (c : Dev nD) (t : Fin cfg0.N) (j : Fin 128) (e : Fin 768) :
    (iblk m c 2 t : S128x768.Idx → Elt F .bf16) (ix2 j e) = (V m c main_v6 : S128x768.Idx → Elt F .bf16) (ix2 j e) := by
  obtain ⟨-, -, -, -, -, -, e0, e1, -⟩ := idx_facts t
  unfold iblk
  rw [View.read_apply]
  show V m c main_v6 (((cfg0.win 2).blk t).view.emb (ix2 j e)) = _
  refine congrArg (V m c main_v6) (funext fun a => Fin.ext ?_)
  match a with
  | ⟨0, _⟩ => show win0_2.index t (0 : Fin 2) * 128 + 1 * j.val = j.val; rw [e0]; omega
  | ⟨1, _⟩ => show win0_2.index t (1 : Fin 2) * 768 + 1 * e.val = e.val; rw [e1]; omega

/-- The salience window is the salience row as the region finds it. -/
theorem iblk3_apply (c : Dev nD) (t : Fin cfg0.N) (j : Fin 128) :
    (iblk m c 3 t : S1x128.Idx → Elt F .f32) (ix2 (0 : Fin 1) j) = (V m c main_v9 : S1x128.Idx → Elt F .f32) (ix2 (0 : Fin 1) j) := by
  obtain ⟨-, -, -, -, -, -, -, -, e0, e1⟩ := idx_facts t
  unfold iblk
  rw [View.read_apply]
  show V m c main_v9 (((cfg0.win 3).blk t).view.emb (ix2 (0 : Fin 1) j)) = _
  refine congrArg (V m c main_v9) (funext fun a => Fin.ext ?_)
  match a with
  | ⟨0, _⟩ => show win0_3.index t (0 : Fin 2) * 1 + 1 * (0 : Fin 1).val = (0 : Fin 1).val; rw [e0]; omega
  | ⟨1, _⟩ => show win0_3.index t (1 : Fin 2) * 128 + 1 * j.val = j.val; rw [e1]; omega

/-! ## The result buffer after the run -/

/-- What the buffers hold when the region is left: the region's arrays at what its write-backs made them, every other
    buffer at its region-entry contents. -/
abbrev atExit (c : Dev nD) : Valuation τ sig (Elt F) :=
  Pipeline.withArrays spec0 c (V0 m c) fun w => (dats m 0 c).arrAt w cfg0.N

/-- The output array at the region's exit is `G`. -/
theorem atExit_out (c : Dev nD) : atExit m c (Proc.devRef .tc main_v10) = G m c :=
  (Pipeline.withArrays_arr spec0 launch0.win.arr_inj c _ _ 4).trans (final4 m c)

/-- The run with the result buffer named: it ends at the line after the region applied to the exit contents, and the ten
    arguments end as launched. -/
theorem run_result : θ_run defs (onTc (τ := τ) (main (F := F))) ⟨m, fun _ => 0, ρ⟩ fun r => ∀ c : Dev nD,
    r.2.mem ((c.tc : Thread nD τ).loc main_v11)
        = StableHlo.after (List.flatten [hostOps1 (F := F)]) (atExit m c) (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨(h c).2 main_v11 (Pipeline.mem_restRefs_of main_v11 (by decide) (by decide)), kept_args m (dats m) r h c⟩)
    (run_main m ρ)

end Cert.KernelIdeal.Around

end
-- ==== Proof.Spec.lean ====
/-
  The two row formulas of the hierarchical memory read, over the extended reals.

  One query row `q` (768 features) is scored against the slots of three memory levels (64, 32 and 16 slots). Slot `j` of a
  level with keys `k` and salience `b` scores `(∑ e, q e * k j e) / D + b j`; a level's read is the softmax-weighted sum
  of its values, and the result is the three reads, each times the level weight `w`, added from zero.

  `refRow` is that formula level by level. `kernRow` is the same number computed over ONE axis of 128 lanes: the three
  levels' slots laid side by side (`cat3`: lanes 0–63, 64–95, 96–111, then 16 lanes of padding), the scores taken with a
  product by the reciprocal `c` of `D` in place of the quotient, and each level's softmax taken over all 128 lanes with
  the lanes outside the level set to `⊥`, so that they drop out of the maximum and their exponential is `0`.
-/
import Idealize.ShloMosaic.PureOps.Ideal
import Idealize.ShloMosaic.PureOps.Ideal.Laws

noncomputable section

namespace Cert.Spec

open Idealize.ShloMosaic

/-! ## Level by level -/

/-- The score of one slot: the quotient of the dot product of query and key by `D`, plus the slot's salience. -/
def score (q k : Fin 768 → EReal) (D b : EReal) : EReal :=
  Ideal.div (∑ e : Fin 768, q e * k e) D + b

/-- The softmax weight of slot `j` among a level's `n` slots with scores `x`: the exponential of the score less the
    largest score, over the sum of those exponentials. The largest score is the maximum from `⊥`, taken against `⊥` once
    more, and the sum starts from zero. -/
def weight {n : ℕ} (x : Fin n → EReal) (j : Fin n) : EReal :=
  Ideal.div (Ideal.exp (x j - max ⊥ (Finset.univ.fold max ⊥ x)))
    (0 + ∑ k : Fin n, Ideal.exp (x k - max ⊥ (Finset.univ.fold max ⊥ x)))

/-- One level's read at one feature: its values weighted by the softmax of its scores. -/
def levelRead {n : ℕ} (x v : Fin n → EReal) : EReal :=
  ∑ j : Fin n, weight x j * v j

/-- The three levels' reads, each times the level weight `w`, added from zero in the order of the levels. -/
def refRow (x0 v0 : Fin 64 → EReal) (x1 v1 : Fin 32 → EReal) (x2 v2 : Fin 16 → EReal) (w : EReal) : EReal :=
  ((0 + levelRead x0 v0 * w) + levelRead x1 v1 * w) + levelRead x2 v2 * w

/-! ## Over one axis of 128 lanes -/

/-- Three levels' entries side by side on 128 lanes — lanes 0–63 the first level's, 64–95 the second's, 96–111 the
    third's — and `z` on the sixteen lanes of padding. -/
def cat3 {α : Type} (z : α) (a : Fin 64 → α) (b : Fin 32 → α) (c : Fin 16 → α) (j : Fin 128) : α :=
  if h0 : j.val < 64 then a ⟨j.val, h0⟩
  else if h1 : j.val < 96 then b ⟨j.val - 64, by omega⟩
  else if h2 : j.val < 112 then c ⟨j.val - 96, by omega⟩
  else z

/-- The score of one lane: the dot product of query and key times the reciprocal `c`, plus the lane's salience. -/
def kscore (q k : Fin 768 → EReal) (c b : EReal) : EReal :=
  (∑ e : Fin 768, q e * k e) * c + b

/-- The lane scores with every lane outside `[lo, hi)` set to `⊥`. -/
def masked (lo hi : ℕ) (S : Fin 128 → EReal) (j : Fin 128) : EReal :=
  if lo ≤ j.val ∧ j.val < hi then S j else ⊥

/-- The softmax weight of lane `j` when only the lanes of `[lo, hi)` count: the softmax of the masked scores over all
    128 lanes. -/
def maskedWeight (lo hi : ℕ) (S : Fin 128 → EReal) (j : Fin 128) : EReal :=
  Ideal.div (Ideal.exp (masked lo hi S j - Finset.univ.fold max ⊥ (masked lo hi S)))
    (∑ k : Fin 128, Ideal.exp (masked lo hi S k - Finset.univ.fold max ⊥ (masked lo hi S)))

/-- The read over 128 lanes: the three masked softmaxes added from zero lane by lane, times the level weight `w`, and
    the lanes' values weighted by that. -/
def kernRow (S vp : Fin 128 → EReal) (w : EReal) : EReal :=
  ∑ j : Fin 128, ((((0 + maskedWeight 0 64 S j) + maskedWeight 64 96 S j) + maskedWeight 96 112 S j) * w) * vp j

end Cert.Spec

end
-- ==== Proof.KernelPay.lean ====
/-
  The stored block read at one index: row `r` of the query block against the 128 lanes, feature `d` of the values, is
  `Cert.Spec.kernRow` of that row's lane scores.

  The block is computed in five steps, each read here at one index. The scores: the product of the query block with the
  keys, contracted along the 768 features, times the scale, plus the salience row repeated down the rows; at `(r, j)` that
  is `Cert.Spec.kscore` of query row `r` and key row `j`. The mask of a level: lane `j` keeps its score when its number lies
  in the level's range and is set to `⊥` otherwise, `Cert.Spec.masked`; the lane numbers are below 128, so the signed
  comparisons of their 32-bit words are the comparisons of the numbers. The softmax of a masked row: its maximum and the
  sum of its exponentials are taken along the lanes and set again on every lane of the row, so at `(r, j)` the quotient is
  `Cert.Spec.maskedWeight`. The three levels' weights are added from zero, lane by lane, and multiplied by the level
  weight. Last, the product with the values, contracted along the 128 lanes: the sum over the lanes of the weight times
  the lane's value at feature `d`, which is `Cert.Spec.kernRow`. A change of float format is the identity on extended
  reals, and so is a cast to the same shape.
-/
import proofs.«102644_g850403525362_cont_9to1_m_493_4_alg».proof.Proof.Stored
import proofs.«102644_g850403525362_cont_9to1_m_493_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body.Pay

open Cert.KernelIdeal Cert.KernelIdeal.Gen Idealize.ShloMosaic Idealize.ShloMosaic.ValueIdx

/-! ## The two named constants and two words -/

/-- The scale reads as the reciprocal the table gives it. -/
theorem scale_eq :
    Named.named (F := Ideal) κ "inv_sqrt_d" (φ := .f32) 0x3D13CD3A#32 = ((524288 / 14529495 : ℝ) : EReal) :=
  IdealRules.named_const.ideal_named_scalar _ _ _ _ rfl

/-- The mask fill reads as `⊥`. -/
theorem fill_eq : Named.named (F := Ideal) κ "neg_big" (φ := .f32) 0xF149F2CA#32 = (⊥ : EReal) :=
  IdealRules.named_const.ideal_named_scalar _ _ _ _ rfl

/-- The word of `-∞`, which the lane maximum starts from, is `⊥`. -/
theorem negInf_word : Ideal.ofBits .f32 0xFF800000#32 = ⊥ := by simp [Ideal.ofBits, Ideal.ieee]

/-! ## A lane number compared with the two ends of a range

Lane numbers and range ends are far below `2 ^ 31`, so the signed comparisons of their 32-bit words are the comparisons
of the numbers. -/

/-- A natural number below `2 ^ 31`, as a 32-bit word, reads signed as itself. -/
theorem toInt_word (n : ℕ) (h : n < 2 ^ 31) : (BitVec.ofNat 32 n).toInt = (n : ℤ) := by
  rw [BitVec.toInt_eq_toNat_of_lt (by rw [BitVec.toNat_ofNat]; omega), BitVec.toNat_ofNat]
  omega

/-- The bit "`lo ≤ n` and `n < hi`" of the two signed comparisons is set exactly when `n` is in `[lo, hi)`. -/
theorem laneBit_eq_one_iff (lo hi n : ℕ) (hlo : lo < 2 ^ 31) (hhi : hi < 2 ^ 31) (hn : n < 2 ^ 31) :
    IntOp.andi (IntOp.cmpi .sge (BitVec.ofNat 32 n) (BitVec.ofNat 32 lo))
        (IntOp.cmpi .slt (BitVec.ofNat 32 n) (BitVec.ofNat 32 hi)) = 1#1
      ↔ lo ≤ n ∧ n < hi := by
  have h1 : (BitVec.ofNat 32 lo).sle (BitVec.ofNat 32 n) = decide (lo ≤ n) := by
    rw [BitVec.sle_eq_decide, toInt_word lo hlo, toInt_word n hn]; simp
  have h2 : (BitVec.ofNat 32 n).slt (BitVec.ofNat 32 hi) = decide (n < hi) := by
    rw [BitVec.slt_eq_decide, toInt_word n hn, toInt_word hi hhi]; simp
  show BitVec.ofBool ((BitVec.ofNat 32 lo).sle (BitVec.ofNat 32 n))
      &&& BitVec.ofBool ((BitVec.ofNat 32 n).slt (BitVec.ofNat 32 hi)) = 1#1 ↔ _
  rw [h1, h2, BitVec.ofBool_and_ofBool]
  by_cases a : lo ≤ n <;> by_cases b : n < hi <;> simp [a, b]

/-- So a select on that bit is the `if` on the range. -/
theorem laneSelect {α : Type} (lo hi n : ℕ) (hlo : lo < 2 ^ 31) (hhi : hi < 2 ^ 31) (hn : n < 2 ^ 31) (a b : α) :
    Scalar.select (IntOp.andi (IntOp.cmpi .sge (BitVec.ofNat 32 n) (BitVec.ofNat 32 lo))
        (IntOp.cmpi .slt (BitVec.ofNat 32 n) (BitVec.ofNat 32 hi))) a b
      = if lo ≤ n ∧ n < hi then a else b := by
  unfold Scalar.select
  exact if_congr (laneBit_eq_one_iff lo hi n hlo hhi hn) rfl rfl

/-! ## A row statistic set on every lane of its row -/

/-- A `[512]` vector cast to a `[512, 1]` column reads, at `(r, u)`, the vector at `r`. -/
theorem col_cast_apply {α : Type} (v : S512.Idx → α) (h : S512.ShapeCasts S512x1) (r : Fin 512) (u : Fin 1) :
    shapeCast S512x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A `[512, 1]` column broadcast over 128 lanes reads, at `(r, j)`, the column at `r`. -/
theorem col_spread_apply {α : Type} (v : S512x1.Idx → α) (h : S512x1.Broadcasts S512x128) (r : Fin 512) (j : Fin 128) :
    broadcastTo S512x128 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- Row `r` with lane `k` put back on the reduced axis is `(r, k)`. -/
theorem lift_lane (hR : S512x128.Reduces [1] S512) (r : Fin 512) (k : Fin 128) : hR.lift (ix1 r) k = ix2 r k :=
  funext fun a => Fin.ext (by match a with | ⟨0, _⟩ => rfl | ⟨1, _⟩ => rfl)

/-- The sum over the lanes, at row `r`. -/
theorem laneSum_apply (e : FVec Ideal S512x128 .f32) (hR : S512x128.Reduces [1] S512) (r : Fin 512) :
    multiReduction (F := Ideal) .add [1] S512 e 0x00000000#32 hR (.inl rfl) rfl (ix1 r) = ∑ k : Fin 128, e (ix2 r k) := by
  refine (Ideal.multiReduction_add_single e 0x00000000#32 hR (.inl rfl) rfl (ix1 r)).trans ?_
  exact Finset.sum_congr rfl fun k _ => congrArg e (lift_lane hR r k)

/-- The maximum over the lanes, at row `r`: the fold of `max` from `⊥`. -/
theorem laneMax_apply (m : FVec Ideal S512x128 .f32) (hR : S512x128.Reduces [1] S512) (r : Fin 512) :
    multiReduction (F := Ideal) .maximumf [1] S512 m 0xFF800000#32 hR (.inl rfl) rfl (ix1 r)
      = (Finset.univ : Finset (Fin 128)).fold max ⊥ (fun k => m (ix2 r k)) := by
  refine (Ideal.multiReduction_maximumf_single m 0xFF800000#32 hR (.inl rfl) rfl (ix1 r)).trans ?_
  show (Finset.univ : Finset (Fin 128)).fold max (Ideal.ofBits .f32 0xFF800000#32) (fun k => m (hR.lift (ix1 r) k)) = _
  rw [negInf_word]
  exact congrArg (fun f => (Finset.univ : Finset (Fin 128)).fold max ⊥ f)
    (funext fun k => congrArg m (lift_lane hR r k))

/-- A row's maximum, set on every lane of the row: when row `r` of `m` is `g`, it is the fold of `max` over `g`. -/
theorem spreadMax_apply (m : FVec Ideal S512x128 .f32) (hR : S512x128.Reduces [1] S512) (hC : S512.ShapeCasts S512x1)
    (hB : S512x1.Broadcasts S512x128) (g : Fin 128 → EReal) (r : Fin 512) (hm : ∀ k, m (ix2 r k) = g k) (j : Fin 128) :
    broadcastTo S512x128 (shapeCast S512x1
        (multiReduction (F := Ideal) .maximumf [1] S512 m 0xFF800000#32 hR (.inl rfl) rfl) hC) hB (ix2 r j)
      = Finset.univ.fold max ⊥ g := by
  rw [col_spread_apply, col_cast_apply, laneMax_apply]
  exact congrArg (fun f => (Finset.univ : Finset (Fin 128)).fold max ⊥ f) (funext hm)

/-- A row's sum, set on every lane of the row: when row `r` of `e` is `h`, it is the sum of `h`. -/
theorem spreadSum_apply (e : FVec Ideal S512x128 .f32) (hR : S512x128.Reduces [1] S512) (hC : S512.ShapeCasts S512x1)
    (hB : S512x1.Broadcasts S512x128) (h : Fin 128 → EReal) (r : Fin 512) (he : ∀ k, e (ix2 r k) = h k) (j : Fin 128) :
    broadcastTo S512x128 (shapeCast S512x1
        (multiReduction (F := Ideal) .add [1] S512 e 0x00000000#32 hR (.inl rfl) rfl) hC) hB (ix2 r j)
      = ∑ k : Fin 128, h k := by
  rw [col_spread_apply, col_cast_apply, laneSum_apply]
  exact Finset.sum_congr rfl fun k _ => he k

/-! ## One softmax over the lanes, and the lane mask -/

/-- The exponentials of `m` less `mx`, each over their row's sum: when row `r` of `m` is `g` and `mx` is `M` all along
    row `r`, lane `j` of that row is `exp (g j - M)` over the sum of the `exp (g k - M)`. -/
theorem softmaxCore_apply (m mx : FVec Ideal S512x128 .f32) (hR : S512x128.Reduces [1] S512) (hC : S512.ShapeCasts S512x1)
    (hB : S512x1.Broadcasts S512x128) (g : Fin 128 → EReal) (M : EReal) (r : Fin 512)
    (hm : ∀ k, m (ix2 r k) = g k) (hmx : ∀ k, mx (ix2 r k) = M) (j : Fin 128) :
    divf (exp (subf m mx)) (broadcastTo S512x128 (shapeCast S512x1
        (multiReduction (F := Ideal) .add [1] S512 (exp (subf m mx)) 0x00000000#32 hR (.inl rfl) rfl) hC) hB) (ix2 r j)
      = Ideal.div (Ideal.exp (g j - M)) (∑ k : Fin 128, Ideal.exp (g k - M)) := by
  have he : ∀ k, exp (subf m mx) (ix2 r k) = Ideal.exp (g k - M) := fun k => by
    show Ideal.exp (m (ix2 r k) - mx (ix2 r k)) = _
    rw [hm k, hmx k]
  rw [divf_apply, he j, spreadSum_apply _ hR hC hB _ r he j]

/-- The scores kept on the lanes of `[lo, hi)` and filled with `⊥` elsewhere: the lane number against the two ends, the
    two bits joined, and the select on them. -/
theorem mask_apply (lo hi : ℕ) (hlo : lo < 2 ^ 31) (hhi : hi < 2 ^ 31) (hI : S512x128.Iotas .tc 32 [1])
    (s : FVec Ideal S512x128 .f32) (fill : Ideal .f32) (hfill : fill = ⊥)
    (g : Fin 128 → EReal) (r : Fin 512) (hs : ∀ k, s (ix2 r k) = g k) (j : Fin 128) :
    select (andi (cmpi .sge (iota .tc S512x128 32 [1] hI) (broadcast S512x128 (BitVec.ofNat 32 lo)))
        (cmpi .slt (iota .tc S512x128 32 [1] hI) (broadcast S512x128 (BitVec.ofNat 32 hi)))) s
        (broadcast S512x128 fill) (ix2 r j)
      = Cert.Spec.masked lo hi g j := by
  rw [select_apply]
  show Scalar.select (IntOp.andi (IntOp.cmpi .sge (iota .tc S512x128 32 [1] hI (ix2 r j)) (BitVec.ofNat 32 lo))
      (IntOp.cmpi .slt (iota .tc S512x128 32 [1] hI (ix2 r j)) (BitVec.ofNat 32 hi))) (s (ix2 r j)) fill = _
  rw [iota_single_apply]
  show Scalar.select (IntOp.andi (IntOp.cmpi .sge (BitVec.ofNat 32 j.val) (BitVec.ofNat 32 lo))
      (IntOp.cmpi .slt (BitVec.ofNat 32 j.val) (BitVec.ofNat 32 hi))) (s (ix2 r j)) fill = _
  rw [laneSelect lo hi j.val hlo hhi (by have := j.isLt; omega)]
  exact if_congr Iff.rfl (hs j) hfill

/-! ## The two matrix products

Each contracts ONE axis, so its sum over the contraction index is a sum over that axis's coordinate. -/

theorem lhs_qk_0 (i : S512x128.Idx) (q : dot_S512x768_S128x768_S512x128_1_1_0_0_n_n.contr.Idx) :
    (dot_S512x768_S128x768_S512x128_1_1_0_0_n_n.lhsIdx i q 0).val = (i 0).val := by
  unfold DotDims.lhsIdx
  rw [dif_neg (show ¬(0 : Fin S512x768.rank) ∈ dot_S512x768_S128x768_S512x128_1_1_0_0_n_n.lhsBatch by decide), dif_pos (show (0 : Fin S512x768.rank) ∈ dot_S512x768_S128x768_S512x128_1_1_0_0_n_n.lhsNonContracting by decide)]
  rfl
theorem lhs_qk_1 (i : S512x128.Idx) (q : dot_S512x768_S128x768_S512x128_1_1_0_0_n_n.contr.Idx) :
    (dot_S512x768_S128x768_S512x128_1_1_0_0_n_n.lhsIdx i q 1).val = (q ⟨0, by decide⟩).val :=
  dot_S512x768_S128x768_S512x128_1_1_0_0_n_n.lhsIdx_val_of_single rfl i q
theorem rhs_qk_0 (i : S512x128.Idx) (q : dot_S512x768_S128x768_S512x128_1_1_0_0_n_n.contr.Idx) :
    (dot_S512x768_S128x768_S512x128_1_1_0_0_n_n.rhsIdx i q 0).val = (i 1).val := by
  unfold DotDims.rhsIdx
  rw [dif_neg (show ¬(0 : Fin S128x768.rank) ∈ dot_S512x768_S128x768_S512x128_1_1_0_0_n_n.rhsBatch by decide), dif_pos (show (0 : Fin S128x768.rank) ∈ dot_S512x768_S128x768_S512x128_1_1_0_0_n_n.rhsNonContracting by decide)]
  rfl
theorem rhs_qk_1 (i : S512x128.Idx) (q : dot_S512x768_S128x768_S512x128_1_1_0_0_n_n.contr.Idx) :
    (dot_S512x768_S128x768_S512x128_1_1_0_0_n_n.rhsIdx i q 1).val = (q ⟨0, by decide⟩).val :=
  dot_S512x768_S128x768_S512x128_1_1_0_0_n_n.rhsIdx_val_of_single rfl i q

/-- Queries against keys, both contracted along their features: at `(r, j)` the dot product of query row `r` and key
    row `j`. -/
theorem qk_apply (q : FVec Ideal S512x768 .bf16) (k : FVec Ideal S128x768 .bf16) (r : Fin 512) (j : Fin 128) :
    matmul dot_S512x768_S128x768_S512x128_1_1_0_0_n_n none q k (constant (F := Ideal) S512x128 .f32 0x00000000#32) (ix2 r j)
      = ∑ e : Fin 768, q (ix2 r e) * k (ix2 j e) := by
  simp only [matmul]
  rw [Ideal.matmul_constant_zero_apply, ← Equiv.sum_comp (contrEquiv1 dot_S512x768_S128x768_S512x128_1_1_0_0_n_n 768 rfl rfl).symm]
  refine Finset.sum_congr rfl fun e _ => ?_
  have he := contrEquiv1_symm_val dot_S512x768_S128x768_S512x128_1_1_0_0_n_n 768 rfl rfl e
  have el : dot_S512x768_S128x768_S512x128_1_1_0_0_n_n.lhsIdx (ix2 r j) ((contrEquiv1 dot_S512x768_S128x768_S512x128_1_1_0_0_n_n 768 rfl rfl).symm e) = ix2 r e := funext fun a => Fin.ext (by
    match a with
    | ⟨0, _⟩ => exact lhs_qk_0 _ _
    | ⟨1, _⟩ => exact (lhs_qk_1 _ _).trans he)
  have er : dot_S512x768_S128x768_S512x128_1_1_0_0_n_n.rhsIdx (ix2 r j) ((contrEquiv1 dot_S512x768_S128x768_S512x128_1_1_0_0_n_n 768 rfl rfl).symm e) = ix2 j e := funext fun a => Fin.ext (by
    match a with
    | ⟨0, _⟩ => exact rhs_qk_0 _ _
    | ⟨1, _⟩ => exact (rhs_qk_1 _ _).trans he)
  rw [el, er]

theorem lhs_pv_0 (i : S512x768.Idx) (q : dot_S512x128_S128x768_S512x768_1_0_0_1_n_n.contr.Idx) :
    (dot_S512x128_S128x768_S512x768_1_0_0_1_n_n.lhsIdx i q 0).val = (i 0).val := by
  unfold DotDims.lhsIdx
  rw [dif_neg (show ¬(0 : Fin S512x128.rank) ∈ dot_S512x128_S128x768_S512x768_1_0_0_1_n_n.lhsBatch by decide), dif_pos (show (0 : Fin S512x128.rank) ∈ dot_S512x128_S128x768_S512x768_1_0_0_1_n_n.lhsNonContracting by decide)]
  rfl
theorem lhs_pv_1 (i : S512x768.Idx) (q : dot_S512x128_S128x768_S512x768_1_0_0_1_n_n.contr.Idx) :
    (dot_S512x128_S128x768_S512x768_1_0_0_1_n_n.lhsIdx i q 1).val = (q ⟨0, by decide⟩).val :=
  dot_S512x128_S128x768_S512x768_1_0_0_1_n_n.lhsIdx_val_of_single rfl i q
theorem rhs_pv_0 (i : S512x768.Idx) (q : dot_S512x128_S128x768_S512x768_1_0_0_1_n_n.contr.Idx) :
    (dot_S512x128_S128x768_S512x768_1_0_0_1_n_n.rhsIdx i q 0).val = (q ⟨0, by decide⟩).val :=
  dot_S512x128_S128x768_S512x768_1_0_0_1_n_n.rhsIdx_val_of_single rfl i q
theorem rhs_pv_1 (i : S512x768.Idx) (q : dot_S512x128_S128x768_S512x768_1_0_0_1_n_n.contr.Idx) :
    (dot_S512x128_S128x768_S512x768_1_0_0_1_n_n.rhsIdx i q 1).val = (i 1).val := by
  unfold DotDims.rhsIdx
  rw [dif_neg (show ¬(1 : Fin S128x768.rank) ∈ dot_S512x128_S128x768_S512x768_1_0_0_1_n_n.rhsBatch by decide), dif_pos (show (1 : Fin S128x768.rank) ∈ dot_S512x128_S128x768_S512x768_1_0_0_1_n_n.rhsNonContracting by decide)]
  rfl

/-- Lane weights against values, the weights contracted along the lanes and the values along their rows: at `(r, d)`
    the sum over the lanes of row `r`'s weight times the lane's value at feature `d`. -/
theorem pv_apply (p : FVec Ideal S512x128 .bf16) (v : FVec Ideal S128x768 .bf16) (r : Fin 512) (d : Fin 768) :
    matmul dot_S512x128_S128x768_S512x768_1_0_0_1_n_n none p v (constant (F := Ideal) S512x768 .f32 0x00000000#32) (ix2 r d)
      = ∑ j : Fin 128, p (ix2 r j) * v (ix2 j d) := by
  simp only [matmul]
  rw [Ideal.matmul_constant_zero_apply, ← Equiv.sum_comp (contrEquiv1 dot_S512x128_S128x768_S512x768_1_0_0_1_n_n 128 rfl rfl).symm]
  refine Finset.sum_congr rfl fun j _ => ?_
  have hj := contrEquiv1_symm_val dot_S512x128_S128x768_S512x768_1_0_0_1_n_n 128 rfl rfl j
  have el : dot_S512x128_S128x768_S512x768_1_0_0_1_n_n.lhsIdx (ix2 r d) ((contrEquiv1 dot_S512x128_S128x768_S512x768_1_0_0_1_n_n 128 rfl rfl).symm j) = ix2 r j := funext fun a => Fin.ext (by
    match a with
    | ⟨0, _⟩ => exact lhs_pv_0 _ _
    | ⟨1, _⟩ => exact (lhs_pv_1 _ _).trans hj)
  have er : dot_S512x128_S128x768_S512x768_1_0_0_1_n_n.rhsIdx (ix2 r d) ((contrEquiv1 dot_S512x128_S128x768_S512x768_1_0_0_1_n_n 128 rfl rfl).symm j) = ix2 j d := funext fun a => Fin.ext (by
    match a with
    | ⟨0, _⟩ => exact (rhs_pv_0 _ _).trans hj
    | ⟨1, _⟩ => exact rhs_pv_1 _ _)
  rw [el, er]

/-! ## The payloads at an index -/

/-- Row `r`'s lane scores: against each lane's key, the dot product times the scale, plus the lane's salience. -/
def rowScores (x0 : Vec Ideal S512x768 .f32) (x1 : Vec Ideal S128x768 .bf16) (x3 : Vec Ideal S1x128 .f32) (r : Fin 512) :
    Fin 128 → EReal :=
  fun j => Cert.Spec.kscore (fun e => x0 (ix2 r e)) (fun e => x1 (ix2 j e)) ((524288 / 14529495 : ℝ) : EReal)
    (x3 (ix2 (0 : Fin 1) j))

/-- The score block at `(r, j)` is row `r`'s score of lane `j`. -/
theorem pay2_apply (x0 : Vec Ideal S512x768 .f32) (x1 : Vec Ideal S128x768 .bf16) (x3 : Vec Ideal S1x128 .f32)
    (r : Fin 512) (j : Fin 128) : k0_pay2 (F := Ideal) x0 x1 x3 (ix2 r j) = rowScores x0 x1 x3 r j := by
  unfold k0_pay2
  simp only [addf_apply, mulf_apply, broadcast_apply]
  rw [scale_eq, broadcastTo_1b_ab_apply, shapeCast_self, shapeCast_self, shapeCast_self, qk_apply]
  rfl

/-- The scores masked to the second level's lanes. -/
theorem pay4_apply (x0 : Vec Ideal S512x768 .f32) (x1 : Vec Ideal S128x768 .bf16) (x3 : Vec Ideal S1x128 .f32)
    (r : Fin 512) (j : Fin 128) :
    k0_pay4 (F := Ideal) x0 x1 x3 (ix2 r j) = Cert.Spec.masked 64 96 (rowScores x0 x1 x3 r) j := by
  unfold k0_pay4
  exact mask_apply 64 96 (by norm_num) (by norm_num) _ _ _ fill_eq _ r (fun k => pay2_apply x0 x1 x3 r k) j

/-- Their maximum along the row, on every lane. -/
theorem pay5_apply (x0 : Vec Ideal S512x768 .f32) (x1 : Vec Ideal S128x768 .bf16) (x3 : Vec Ideal S1x128 .f32)
    (r : Fin 512) (j : Fin 128) :
    k0_pay5 (F := Ideal) x0 x1 x3 (ix2 r j) = Finset.univ.fold max ⊥ (Cert.Spec.masked 64 96 (rowScores x0 x1 x3 r)) := by
  unfold k0_pay5
  exact spreadMax_apply _ _ _ _ _ r (fun k => pay4_apply x0 x1 x3 r k) j

/-- Zero plus the first level's masked softmax. -/
theorem pay3_apply (x0 : Vec Ideal S512x768 .f32) (x1 : Vec Ideal S128x768 .bf16) (x3 : Vec Ideal S1x128 .f32)
    (r : Fin 512) (j : Fin 128) :
    k0_pay3 (F := Ideal) x0 x1 x3 (ix2 r j) = 0 + Cert.Spec.maskedWeight 0 64 (rowScores x0 x1 x3 r) j := by
  have hm := fun (k : Fin 128) => mask_apply 0 64 (by norm_num) (by norm_num) iota_S512x128_d1_w32 (k0_pay2 (F := Ideal) x0 x1 x3)
    _ fill_eq _ r (fun k' => pay2_apply x0 x1 x3 r k') k
  unfold k0_pay3
  simp only [addf_apply, broadcast_apply]
  refine congrArg₂ (· + ·) Ideal.ofBits_zero_f32 ?_
  exact softmaxCore_apply _ _ _ _ _ _ _ r hm (fun k => spreadMax_apply _ _ _ _ _ r hm k) j

end Cert.KernelIdeal.Body.Pay

namespace Cert.KernelIdeal.Body

open Cert.KernelIdeal Cert.KernelIdeal.Gen Idealize.ShloMosaic Idealize.ShloMosaic.ValueIdx Cert.KernelIdeal.Body.Pay

/-- The stored block at `(r, d)`. The two named constants read as the table gives them: the scale as `524288 / 14529495`,
    the mask fill as `⊥`. -/
theorem stored_apply (x0 : Vec Ideal S512x768 .f32) (x1 x2 : Vec Ideal S128x768 .bf16) (x3 : Vec Ideal S1x128 .f32)
    (r : Fin 512) (d : Fin 768) :
    stored (F := Ideal) x0 x1 x2 x3 (ix2 r d)
      = Cert.Spec.kernRow
          (fun j => Cert.Spec.kscore (fun e => x0 (ix2 r e)) (fun e => x1 (ix2 j e)) ((524288 / 14529495 : ℝ) : EReal)
            (x3 (ix2 (0 : Fin 1) j)))
          (fun j => x2 (ix2 j d))
          (Ideal.ofBits .f32 0x3EAAAAAB#32) := by
  have hm3 := fun (k : Fin 128) => mask_apply 96 112 (by norm_num) (by norm_num) iota_S512x128_d1_w32 (k0_pay2 (F := Ideal) x0 x1 x3)
    _ fill_eq _ r (fun k' => pay2_apply x0 x1 x3 r k') k
  show stored (F := Ideal) x0 x1 x2 x3 (ix2 r d)
    = Cert.Spec.kernRow (rowScores x0 x1 x3 r) (fun j => x2 (ix2 j d)) (Ideal.ofBits .f32 0x3EAAAAAB#32)
  unfold stored k0_pay1
  refine (pv_apply _ _ r d).trans ?_
  unfold Cert.Spec.kernRow
  refine Finset.sum_congr rfl fun j _ => ?_
  rw [shapeCast_self]
  refine congrArg₂ (· * ·) ?_ rfl
  simp only [truncf_apply, mulf_apply, addf_apply, broadcast_apply]
  refine congrArg₂ (· * ·) (congrArg₂ (· + ·) (congrArg₂ (· + ·) (pay3_apply x0 x1 x3 r j) ?_) ?_) rfl
  · exact softmaxCore_apply _ _ _ _ _ _ _ r (fun k => pay4_apply x0 x1 x3 r k) (fun k => pay5_apply x0 x1 x3 r k) j
  · exact softmaxCore_apply _ _ _ _ _ _ _ r hm3 (fun k => spreadMax_apply _ _ _ _ _ r hm3 k) j

end Cert.KernelIdeal.Body

end
-- ==== Proof.HostArrays.lean ====
/-
  The four arrays the kernel's windows stage, as the region finds them, read at an index; and the line after the region.

  The query array is the launch query with its two leading axes merged (row `4096 * b + t` is row `(b, t)`). The key and
  value arrays are the three levels' arrays stacked along the slot axis and padded with sixteen rows of zeros
  (`Cert.Spec.cat3 0`), a change of float format being the identity on extended reals; the salience row is the three
  levels' salience vectors stacked and padded the same way, as one row of 128 lanes. The line after the region splits
  the leading axis of the result back into `(b, t)`.

  Each array is first written as ONE term over the launch memory: the operations that produce it, composed. That term is
  then read at an index, operation by operation from the outside in: a reshape keeps the row-major position; a padding
  reads its operand below row 112 and the padding value from there on; a stack of 64, 32 and 16 rows reads the piece
  whose span holds the row. The padding value is the integer zero converted, the real zero.
-/
import proofs.«102644_g850403525362_cont_9to1_m_493_4_alg».proof.Proof.Entry
import proofs.«102644_g850403525362_cont_9to1_m_493_4_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

noncomputable section

namespace Cert.KernelIdeal.Around

open Cert.KernelIdeal Cert.KernelIdeal.Gen
open Idealize.ShloMosaic Idealize.ShloMosaic.TcCoe Idealize.SL.Sem Idealize.ShloMosaic.ValueIdx

/-! ## The layout operations of these arrays, read at an index -/

section Layout
variable {α : Type}

/-- `[4, 4096, 768]` read as `[16384, 768]`: row `4096 * b + t` is row `(b, t)`, the two having one row-major position. -/
theorem host_merged_apply (x : (⟨3, ![4, 4096, 768]⟩ : Shape).Idx → α)
    (h : (⟨3, ![4, 4096, 768]⟩ : Shape).ShapeCasts ⟨2, ![16384, 768]⟩)
    (b : Fin 4) (t : Fin 4096) (e : Fin 768) (r : Fin 16384) (hr : r.val = 4096 * b.val + t.val) :
    shapeCast ⟨2, ![16384, 768]⟩ x h (ix2 r e) = x (ix3 b t e) :=
  shapeCast_apply x h _ _ (by
    rw [Shape.rowMajor_val_three, Shape.rowMajor_val_two]
    show (b.val * 4096 + t.val) * 768 + e.val = r.val * 768 + e.val
    omega)

/-- `[16384, 768]` read as `[4, 4096, 768]`: row `(b, t)` is row `4096 * b + t`. -/
theorem host_split_apply (x : (⟨2, ![16384, 768]⟩ : Shape).Idx → α)
    (h : (⟨2, ![16384, 768]⟩ : Shape).ShapeCasts ⟨3, ![4, 4096, 768]⟩)
    (b : Fin 4) (t : Fin 4096) (e : Fin 768) (r : Fin 16384) (hr : r.val = 4096 * b.val + t.val) :
    shapeCast ⟨3, ![4, 4096, 768]⟩ x h (ix3 b t e) = x (ix2 r e) :=
  shapeCast_apply x h _ _ (by
    rw [Shape.rowMajor_val_two, Shape.rowMajor_val_three]
    show r.val * 768 + e.val = (b.val * 4096 + t.val) * 768 + e.val
    omega)

/-- Arrays of 64, 32 and 16 rows stacked and padded to 128 rows with the value `z`: row `j`, column `e`. Below row 112
    the padding reads its operand, and the stack reads the piece whose span (rows 0–63, 64–95, 96–111) holds `j`, at
    `j` less the rows before it; from row 112 on the padding reads its value. -/
theorem host_stack_rows (z : α) (x0 : (⟨2, ![64, 768]⟩ : Shape).Idx → α) (x1 : (⟨2, ![32, 768]⟩ : Shape).Idx → α)
    (x2 : (⟨2, ![16, 768]⟩ : Shape).Idx → α)
    (hc : Shape.Concatenates [(⟨2, ![64, 768]⟩ : Shape), ⟨2, ![32, 768]⟩, ⟨2, ![16, 768]⟩] ⟨2, ![112, 768]⟩ 0)
    {u : Shape} (v : u.Idx → α)
    (hp : (⟨2, ![112, 768]⟩ : Shape).Pads (![0, 0] : Fin 2 → Nat) ![16, 0] ![0, 0] ⟨2, ![128, 768]⟩)
    (hu : 0 < u.numel) (hz : v (Shape.Idx.first hu) = z) (j : Fin 128) (e : Fin 768) :
    pad ⟨2, ![128, 768]⟩ ![0, 0] ![16, 0] ![0, 0]
        (concatenate ⟨2, ![112, 768]⟩ 0 [⟨⟨2, ![64, 768]⟩, x0⟩, ⟨⟨2, ![32, 768]⟩, x1⟩, ⟨⟨2, ![16, 768]⟩, x2⟩] hc)
        v hp hu (ix2 j e)
      = Cert.Spec.cat3 z (fun a => x0 (ix2 a e)) (fun a => x1 (ix2 a e)) (fun a => x2 (ix2 a e)) j := by
  unfold Cert.Spec.cat3
  by_cases h2 : j.val < 112
  · refine (pad_apply_of_inside _ _ _ _ v hp hu (ix2 j e) (ix2 (⟨j.val, h2⟩ : Fin 112) e) (fun a => ?_)).trans ?_
    · match a with
      | ⟨0, _⟩ => show j.val = 0 + j.val * (0 + 1); omega
      | ⟨1, _⟩ => show e.val = 0 + e.val * (0 + 1); omega
    · by_cases h0 : j.val < 64
      · rw [dif_pos h0]
        exact concatenate_apply_piece (t := ⟨2, ![112, 768]⟩) 0
          [⟨⟨2, ![64, 768]⟩, x0⟩, ⟨⟨2, ![32, 768]⟩, x1⟩, ⟨⟨2, ![16, 768]⟩, x2⟩] hc
          (ix2 (⟨j.val, h2⟩ : Fin 112) e) 0 (by simp) ⟨2, ![64, 768]⟩ x0 rfl rfl 0 rfl
          (ix2 (⟨j.val, h0⟩ : Fin 64) e)
          (fun b hb => by
            match b, hb with
            | ⟨0, _⟩, hb => exact absurd (Fin.ext rfl) hb
            | ⟨1, _⟩, _ => rfl)
          (by show 0 + j.val = j.val; omega)
      · rw [dif_neg h0]
        by_cases h1 : j.val < 96
        · rw [dif_pos h1]
          exact concatenate_apply_piece (t := ⟨2, ![112, 768]⟩) 0
            [⟨⟨2, ![64, 768]⟩, x0⟩, ⟨⟨2, ![32, 768]⟩, x1⟩, ⟨⟨2, ![16, 768]⟩, x2⟩] hc
            (ix2 (⟨j.val, h2⟩ : Fin 112) e) 1 (by simp) ⟨2, ![32, 768]⟩ x1 rfl rfl 64 rfl
            (ix2 (⟨j.val - 64, by omega⟩ : Fin 32) e)
            (fun b hb => by
              match b, hb with
              | ⟨0, _⟩, hb => exact absurd (Fin.ext rfl) hb
              | ⟨1, _⟩, _ => rfl)
            (by show 64 + (j.val - 64) = j.val; omega)
        · rw [dif_neg h1, dif_pos h2]
          exact concatenate_apply_piece (t := ⟨2, ![112, 768]⟩) 0
            [⟨⟨2, ![64, 768]⟩, x0⟩, ⟨⟨2, ![32, 768]⟩, x1⟩, ⟨⟨2, ![16, 768]⟩, x2⟩] hc
            (ix2 (⟨j.val, h2⟩ : Fin 112) e) 2 (by simp) ⟨2, ![16, 768]⟩ x2 rfl rfl 96 rfl
            (ix2 (⟨j.val - 96, by omega⟩ : Fin 16) e)
            (fun b hb => by
              match b, hb with
              | ⟨0, _⟩, hb => exact absurd (Fin.ext rfl) hb
              | ⟨1, _⟩, _ => rfl)
            (by show 96 + (j.val - 96) = j.val; omega)
  · rw [dif_neg (show ¬j.val < 64 by omega), dif_neg (show ¬j.val < 96 by omega), dif_neg h2]
    refine (pad_apply_of_not_inside _ _ _ _ v hp hu (ix2 j e) (0 : Fin 2) (fun hin => h2 ?_)).trans hz
    have h3 : j.val / 1 < 112 := hin.2.2
    omega

/-- Vectors of 64, 32 and 16 entries stacked and padded to 128 entries with the value `z`: entry `j`, as for the rows. -/
theorem host_stack_lanes (z : α) (x0 : (⟨1, ![64]⟩ : Shape).Idx → α) (x1 : (⟨1, ![32]⟩ : Shape).Idx → α)
    (x2 : (⟨1, ![16]⟩ : Shape).Idx → α)
    (hc : Shape.Concatenates [(⟨1, ![64]⟩ : Shape), ⟨1, ![32]⟩, ⟨1, ![16]⟩] ⟨1, ![112]⟩ 0)
    {u : Shape} (v : u.Idx → α)
    (hp : (⟨1, ![112]⟩ : Shape).Pads (![0] : Fin 1 → Nat) ![16] ![0] ⟨1, ![128]⟩)
    (hu : 0 < u.numel) (hz : v (Shape.Idx.first hu) = z) (j : Fin 128) :
    pad ⟨1, ![128]⟩ ![0] ![16] ![0]
        (concatenate ⟨1, ![112]⟩ 0 [⟨⟨1, ![64]⟩, x0⟩, ⟨⟨1, ![32]⟩, x1⟩, ⟨⟨1, ![16]⟩, x2⟩] hc)
        v hp hu (ix1 j)
      = Cert.Spec.cat3 z (fun a => x0 (ix1 a)) (fun a => x1 (ix1 a)) (fun a => x2 (ix1 a)) j := by
  unfold Cert.Spec.cat3
  by_cases h2 : j.val < 112
  · refine (pad_apply_of_inside _ _ _ _ v hp hu (ix1 j) (ix1 (⟨j.val, h2⟩ : Fin 112)) (fun a => ?_)).trans ?_
    · match a with
      | ⟨0, _⟩ => show j.val = 0 + j.val * (0 + 1); omega
    · by_cases h0 : j.val < 64
      · rw [dif_pos h0]
        exact concatenate_apply_piece (t := ⟨1, ![112]⟩) 0
          [⟨⟨1, ![64]⟩, x0⟩, ⟨⟨1, ![32]⟩, x1⟩, ⟨⟨1, ![16]⟩, x2⟩] hc
          (ix1 (⟨j.val, h2⟩ : Fin 112)) 0 (by simp) ⟨1, ![64]⟩ x0 rfl rfl 0 rfl
          (ix1 (⟨j.val, h0⟩ : Fin 64))
          (fun b hb => by
            match b, hb with
            | ⟨0, _⟩, hb => exact absurd (Fin.ext rfl) hb)
          (by show 0 + j.val = j.val; omega)
      · rw [dif_neg h0]
        by_cases h1 : j.val < 96
        · rw [dif_pos h1]
          exact concatenate_apply_piece (t := ⟨1, ![112]⟩) 0
            [⟨⟨1, ![64]⟩, x0⟩, ⟨⟨1, ![32]⟩, x1⟩, ⟨⟨1, ![16]⟩, x2⟩] hc
            (ix1 (⟨j.val, h2⟩ : Fin 112)) 1 (by simp) ⟨1, ![32]⟩ x1 rfl rfl 64 rfl
            (ix1 (⟨j.val - 64, by omega⟩ : Fin 32))
            (fun b hb => by
              match b, hb with
              | ⟨0, _⟩, hb => exact absurd (Fin.ext rfl) hb)
            (by show 64 + (j.val - 64) = j.val; omega)
        · rw [dif_neg h1, dif_pos h2]
          exact concatenate_apply_piece (t := ⟨1, ![112]⟩) 0
            [⟨⟨1, ![64]⟩, x0⟩, ⟨⟨1, ![32]⟩, x1⟩, ⟨⟨1, ![16]⟩, x2⟩] hc
            (ix1 (⟨j.val, h2⟩ : Fin 112)) 2 (by simp) ⟨1, ![16]⟩ x2 rfl rfl 96 rfl
            (ix1 (⟨j.val - 96, by omega⟩ : Fin 16))
            (fun b hb => by
              match b, hb with
              | ⟨0, _⟩, hb => exact absurd (Fin.ext rfl) hb)
            (by show 96 + (j.val - 96) = j.val; omega)
  · rw [dif_neg (show ¬j.val < 64 by omega), dif_neg (show ¬j.val < 96 by omega), dif_neg h2]
    refine (pad_apply_of_not_inside _ _ _ _ v hp hu (ix1 j) (0 : Fin 1) (fun hin => h2 ?_)).trans hz
    have h3 : j.val / 1 < 112 := hin.2.2
    omega

/-- The padding value: the integer zero converted to a float is the real zero. -/
theorem host_zero (i : S_.Idx) : (sitofp .f32 (constantI S_ 32 0#32) : FVec Ideal S_ .f32) i = (0 : EReal) := by
  show ((((0#32 : BitVec 32).toInt : ℤ) : ℝ) : EReal) = 0
  simp

end Layout

/-! ## The arrays at the region's entry, each as one term over the launch memory -/

variable (m : (ℓ : Loc nD τ sig) → Buf (Elt Ideal) ℓ)

/-- The query array is the launch query, reshaped. -/
theorem query_array (c : Dev nD) :
    (V m c main_v0 : S16384x768.Idx → EReal)
      = shapeCast S16384x768 (m ((c.tc : Thread nD τ).loc main_arg0) : S4x4096x768.Idx → EReal)
          shapeCasts_S4x4096x768_S16384x768 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The key array is the three levels' keys stacked, padded with the converted integer zero, in the narrower format. -/
theorem keys_array (c : Dev nD) :
    (V m c main_v4 : S128x768.Idx → EReal)
      = truncf .bf16
          (pad S128x768 ![0, 0] ![16, 0] ![0, 0]
            (concatenate S112x768 0
              [⟨S64x768, (m ((c.tc : Thread nD τ).loc main_arg1) : FVec Ideal S64x768 .f32)⟩,
               ⟨S32x768, (m ((c.tc : Thread nD τ).loc main_arg4) : FVec Ideal S32x768 .f32)⟩,
               ⟨S16x768, (m ((c.tc : Thread nD τ).loc main_arg7) : FVec Ideal S16x768 .f32)⟩]
              concatenates_S64x768_S32x768_S16x768_S112x768_d0)
            (sitofp .f32 (constantI S_ 32 0#32) : FVec Ideal S_ .f32)
            pads_S112x768_S128x768_0160_000 h_S_ : FVec Ideal S128x768 .f32)
          bitsLt_bf16_f32 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The value array likewise, of the three levels' values. -/
theorem values_array (c : Dev nD) :
    (V m c main_v6 : S128x768.Idx → EReal)
      = truncf .bf16
          (pad S128x768 ![0, 0] ![16, 0] ![0, 0]
            (concatenate S112x768 0
              [⟨S64x768, (m ((c.tc : Thread nD τ).loc main_arg2) : FVec Ideal S64x768 .f32)⟩,
               ⟨S32x768, (m ((c.tc : Thread nD τ).loc main_arg5) : FVec Ideal S32x768 .f32)⟩,
               ⟨S16x768, (m ((c.tc : Thread nD τ).loc main_arg8) : FVec Ideal S16x768 .f32)⟩]
              concatenates_S64x768_S32x768_S16x768_S112x768_d0)
            (sitofp .f32 (constantI S_ 32 0#32) : FVec Ideal S_ .f32)
            pads_S112x768_S128x768_0160_000 h_S_ : FVec Ideal S128x768 .f32)
          bitsLt_bf16_f32 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The salience row is the three levels' salience vectors stacked, padded with the converted integer zero, and
    reshaped to one row. -/
theorem salience_array (c : Dev nD) :
    (V m c main_v9 : S1x128.Idx → EReal)
      = shapeCast S1x128
          (pad S128 ![0] ![16] ![0]
            (concatenate S112 0
              [⟨S64, (m ((c.tc : Thread nD τ).loc main_arg3) : FVec Ideal S64 .f32)⟩,
               ⟨S32, (m ((c.tc : Thread nD τ).loc main_arg6) : FVec Ideal S32 .f32)⟩,
               ⟨S16, (m ((c.tc : Thread nD τ).loc main_arg9) : FVec Ideal S16 .f32)⟩]
              concatenates_S64_S32_S16_S112_d0)
            (sitofp .f32 (constantI S_ 32 0#32) : FVec Ideal S_ .f32)
            pads_S112_S128_0160 h_S_ : FVec Ideal S128 .f32)
          shapeCasts_S128_S1x128 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-! ## The arrays read at an index -/

/-- The query array at the region's entry: row `4096 * b + t` is the launch query's row `(b, t)`. -/
theorem entry_query (c : Dev nD) (b : Fin 4) (t : Fin 4096) (e : Fin 768) :
    (V m c main_v0 : S16384x768.Idx → EReal) (ix2 (⟨4096 * b.val + t.val, by omega⟩ : Fin 16384) e)
      = (m ((c.tc : Thread nD τ).loc main_arg0) : S4x4096x768.Idx → EReal) (ix3 b t e) :=
  (congrFun (query_array m c) _).trans
    (host_merged_apply (m ((c.tc : Thread nD τ).loc main_arg0)) shapeCasts_S4x4096x768_S16384x768 b t e
      ⟨4096 * b.val + t.val, by omega⟩ rfl)

/-- The key array at the region's entry: the three levels' keys stacked, then sixteen rows of zeros. -/
theorem entry_keys (c : Dev nD) (j : Fin 128) (e : Fin 768) :
    (V m c main_v4 : S128x768.Idx → EReal) (ix2 j e)
      = Cert.Spec.cat3 (0 : EReal)
          (fun a => (m ((c.tc : Thread nD τ).loc main_arg1) : S64x768.Idx → EReal) (ix2 a e))
          (fun a => (m ((c.tc : Thread nD τ).loc main_arg4) : S32x768.Idx → EReal) (ix2 a e))
          (fun a => (m ((c.tc : Thread nD τ).loc main_arg7) : S16x768.Idx → EReal) (ix2 a e)) j :=
  (congrFun (keys_array m c) _).trans
    ((truncf_apply (φ := .f32) (ψ := .bf16) _ bitsLt_bf16_f32 _).trans
      (host_stack_rows (0 : EReal) (m ((c.tc : Thread nD τ).loc main_arg1)) (m ((c.tc : Thread nD τ).loc main_arg4))
        (m ((c.tc : Thread nD τ).loc main_arg7)) concatenates_S64x768_S32x768_S16x768_S112x768_d0
        (sitofp .f32 (constantI S_ 32 0#32) : FVec Ideal S_ .f32) pads_S112x768_S128x768_0160_000 h_S_
        (host_zero _) j e))

/-- The value array at the region's entry: the three levels' values stacked, then sixteen rows of zeros. -/
theorem entry_values (c : Dev nD) (j : Fin 128) (e : Fin 768) :
    (V m c main_v6 : S128x768.Idx → EReal) (ix2 j e)
      = Cert.Spec.cat3 (0 : EReal)
          (fun a => (m ((c.tc : Thread nD τ).loc main_arg2) : S64x768.Idx → EReal) (ix2 a e))
          (fun a => (m ((c.tc : Thread nD τ).loc main_arg5) : S32x768.Idx → EReal) (ix2 a e))
          (fun a => (m ((c.tc : Thread nD τ).loc main_arg8) : S16x768.Idx → EReal) (ix2 a e)) j :=
  (congrFun (values_array m c) _).trans
    ((truncf_apply (φ := .f32) (ψ := .bf16) _ bitsLt_bf16_f32 _).trans
      (host_stack_rows (0 : EReal) (m ((c.tc : Thread nD τ).loc main_arg2)) (m ((c.tc : Thread nD τ).loc main_arg5))
        (m ((c.tc : Thread nD τ).loc main_arg8)) concatenates_S64x768_S32x768_S16x768_S112x768_d0
        (sitofp .f32 (constantI S_ 32 0#32) : FVec Ideal S_ .f32) pads_S112x768_S128x768_0160_000 h_S_
        (host_zero _) j e))

/-- The salience row at the region's entry: the three levels' salience stacked, then sixteen zeros, as one row. -/
theorem entry_salience (c : Dev nD) (j : Fin 128) :
    (V m c main_v9 : S1x128.Idx → EReal) (ix2 (0 : Fin 1) j)
      = Cert.Spec.cat3 (0 : EReal)
          (fun a => (m ((c.tc : Thread nD τ).loc main_arg3) : S64.Idx → EReal) (ix1 a))
          (fun a => (m ((c.tc : Thread nD τ).loc main_arg6) : S32.Idx → EReal) (ix1 a))
          (fun a => (m ((c.tc : Thread nD τ).loc main_arg9) : S16.Idx → EReal) (ix1 a)) j :=
  (congrFun (salience_array m c) _).trans
    ((shapeCast_a_1a_apply _ _ (0 : Fin 1) j).trans
      (host_stack_lanes (0 : EReal) (m ((c.tc : Thread nD τ).loc main_arg3)) (m ((c.tc : Thread nD τ).loc main_arg6))
        (m ((c.tc : Thread nD τ).loc main_arg9)) concatenates_S64_S32_S16_S112_d0
        (sitofp .f32 (constantI S_ 32 0#32) : FVec Ideal S_ .f32) pads_S112_S128_0160 h_S_ (host_zero _) j))

/-- The line after the region: the result at `(b, t, d)` is the kernel's output array at row `4096 * b + t`, whatever
    the buffers hold when the region is left. -/
theorem tail_apply (W : Valuation τ sig (Elt Ideal)) (b : Fin 4) (t : Fin 4096) (d : Fin 768) :
    (StableHlo.after (List.flatten [hostOps1 (F := Ideal)]) W (Proc.devRef .tc main_v11) : S4x4096x768.Idx → EReal) (ix3 b t d)
      = (W (Proc.devRef .tc main_v10) : S16384x768.Idx → EReal) (ix2 (⟨4096 * b.val + t.val, by omega⟩ : Fin 16384) d) := by
  have e : (StableHlo.after (List.flatten [hostOps1 (F := Ideal)]) W (Proc.devRef .tc main_v11) : S4x4096x768.Idx → EReal)
      = shapeCast S4x4096x768 (W (Proc.devRef .tc main_v10) : S16384x768.Idx → EReal)
          shapeCasts_S16384x768_S4x4096x768 := by
    simp only [hostOps1, List.flatten_cons, List.flatten_nil, List.append_nil]
    after_results
    rfl
  exact (congrFun e _).trans
    (host_split_apply (W (Proc.devRef .tc main_v10)) shapeCasts_S16384x768_S4x4096x768 b t d
      ⟨4096 * b.val + t.val, by omega⟩ rfl)

end Cert.KernelIdeal.Around

end
-- ==== Proof.KernelRow.lean ====
/-
  The idealized kernel's result read at one index, in terms of the launch arrays: the entry `(b, t, d)` of the result
  buffer is `Cert.Spec.kernRow` of query row `(b, t)` against the three levels' keys and salience stacked on 128 lanes,
  with the three levels' values at feature `d` stacked the same way.
-/
import proofs.«102644_g850403525362_cont_9to1_m_493_4_alg».proof.Proof.KernelValue
import proofs.«102644_g850403525362_cont_9to1_m_493_4_alg».proof.Proof.KernelPay
import proofs.«102644_g850403525362_cont_9to1_m_493_4_alg».proof.Proof.HostArrays
import proofs.«102644_g850403525362_cont_9to1_m_493_4_alg».proof.Proof.Spec
import Idealize.ShloMosaic.Lib.ValueIdx

noncomputable section

namespace Cert.KernelIdeal.Around

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The stored block at `(r, d)`, when the entries it reads of its four blocks are known: row `r` of the query block is
    `q`, the key block's row `j` is `fun e => K e j`, the value block's column `d` is `P` and the salience row is `B`. The
    lane scores and the lanes' values of `Cert.Spec.kernRow` are then those of `q`, `K`, `B` and `P`. -/
theorem stored_row (x0 : Vec Ideal S512x768 .f32) (x1 x2 : Vec Ideal S128x768 .bf16) (x3 : Vec Ideal S1x128 .f32)
    (r : Fin 512) (d : Fin 768) (q : Fin 768 → EReal) (K : Fin 768 → Fin 128 → EReal) (B P : Fin 128 → EReal)
    (h0 : ∀ e, x0 (ix2 r e) = q e) (h1 : ∀ j e, x1 (ix2 j e) = K e j) (h2 : ∀ j, x2 (ix2 j d) = P j)
    (h3 : ∀ j, x3 (ix2 (0 : Fin 1) j) = B j) :
    Body.stored (F := Ideal) x0 x1 x2 x3 (ix2 r d)
      = Cert.Spec.kernRow (fun j => Cert.Spec.kscore q (fun e => K e j) ((524288 / 14529495 : ℝ) : EReal) (B j)) P
          (Ideal.ofBits .f32 0x3EAAAAAB#32) := by
  refine (Body.stored_apply x0 x1 x2 x3 r d).trans ?_
  refine congrArg₂ (fun S vp => Cert.Spec.kernRow S vp (Ideal.ofBits .f32 0x3EAAAAAB#32)) (funext fun j => ?_) (funext h2)
  show Cert.Spec.kscore (fun e => x0 (ix2 r e)) (fun e => x1 (ix2 j e)) _ (x3 (ix2 (0 : Fin 1) j))
    = Cert.Spec.kscore q (fun e => K e j) _ (B j)
  rw [h3 j]
  exact congrArg₂ (fun a k => Cert.Spec.kscore a k _ _) (funext h0) (funext (h1 j))

/-- Row `R` of the output array lies in the block of grid point `R / 512`, -/
theorem pointOf_row (R : Fin 16384) (d : Fin 768) : (pointOf (ix2 R d)).val = R.val / 512 := rfl

/-- at row `R % 512` of that block, in the same column. -/
theorem within_row (R : Fin 16384) (d : Fin 768) :
    within (ix2 R d) = ix2 (⟨R.val % 512, Nat.mod_lt _ (by decide)⟩ : Fin 512) d := rfl

/-- So the output array after the run, at row `R`, is row `R % 512` of the value stored at point `R / 512`: the
    stored block of that point's four blocks. -/
theorem G_row (c : Dev nD) (R : Fin 16384) (d : Fin 768) :
    ∃ p : Fin cfg0.N, p.val = R.val / 512 ∧
      G m c (ix2 R d) = Body.stored (iblk m c 0 p) (iblk m c 1 p) (iblk m c 2 p) (iblk m c 3 p)
        (ix2 (⟨R.val % 512, Nat.mod_lt _ (by decide)⟩ : Fin 512) d) :=
  ⟨pointOf (ix2 R d), pointOf_row R d, congrArg (blockVal m c (pointOf (ix2 R d))) (within_row R d)⟩

/-- The result buffer after the run, at `(b, t, d)`. -/
theorem result_apply (c : Dev nD) (b : Fin 4) (t : Fin 4096) (d : Fin 768) :
    (StableHlo.after (List.flatten [hostOps1 (F := Ideal)]) (atExit m c) (Proc.devRef .tc main_v11) : S4x4096x768.Idx → EReal) (ix3 b t d)
      = Cert.Spec.kernRow
          (fun j => Cert.Spec.kscore
            (fun e => (m ((c.tc : Thread nD τ).loc main_arg0) : S4x4096x768.Idx → EReal) (ix3 b t e))
            (fun e => Cert.Spec.cat3 (0 : EReal)
              (fun a => (m ((c.tc : Thread nD τ).loc main_arg1) : S64x768.Idx → EReal) (ix2 a e))
              (fun a => (m ((c.tc : Thread nD τ).loc main_arg4) : S32x768.Idx → EReal) (ix2 a e))
              (fun a => (m ((c.tc : Thread nD τ).loc main_arg7) : S16x768.Idx → EReal) (ix2 a e)) j)
            ((524288 / 14529495 : ℝ) : EReal)
            (Cert.Spec.cat3 (0 : EReal)
              (fun a => (m ((c.tc : Thread nD τ).loc main_arg3) : S64.Idx → EReal) (ix1 a))
              (fun a => (m ((c.tc : Thread nD τ).loc main_arg6) : S32.Idx → EReal) (ix1 a))
              (fun a => (m ((c.tc : Thread nD τ).loc main_arg9) : S16.Idx → EReal) (ix1 a)) j))
          (Cert.Spec.cat3 (0 : EReal)
            (fun a => (m ((c.tc : Thread nD τ).loc main_arg2) : S64x768.Idx → EReal) (ix2 a d))
            (fun a => (m ((c.tc : Thread nD τ).loc main_arg5) : S32x768.Idx → EReal) (ix2 a d))
            (fun a => (m ((c.tc : Thread nD τ).loc main_arg8) : S16x768.Idx → EReal) (ix2 a d)))
          (Ideal.ofBits .f32 0x3EAAAAAB#32) := by
  -- the line after the region reads the output array at row `4096 * b + t`, and the run leaves that array at `G`
  refine (tail_apply (atExit m c) b t d).trans ?_
  refine (congrFun (atExit_out m c) _).trans ?_
  -- that row is row `(4096 * b + t) % 512` of the block stored at point `p = (4096 * b + t) / 512`
  obtain ⟨p, hp, hG⟩ := G_row m c (⟨4096 * b.val + t.val, by omega⟩ : Fin 16384) d
  have hp' : p.val = (4096 * b.val + t.val) / 512 := hp
  refine hG.trans ?_
  -- the stored block over the entries of the four blocks, each read back to the launch arrays
  refine stored_row _ _ _ _ _ d
    (fun e => (m ((c.tc : Thread nD τ).loc main_arg0) : S4x4096x768.Idx → EReal) (ix3 b t e))
    (fun e => Cert.Spec.cat3 (0 : EReal)
      (fun a => (m ((c.tc : Thread nD τ).loc main_arg1) : S64x768.Idx → EReal) (ix2 a e))
      (fun a => (m ((c.tc : Thread nD τ).loc main_arg4) : S32x768.Idx → EReal) (ix2 a e))
      (fun a => (m ((c.tc : Thread nD τ).loc main_arg7) : S16x768.Idx → EReal) (ix2 a e)))
    (Cert.Spec.cat3 (0 : EReal)
      (fun a => (m ((c.tc : Thread nD τ).loc main_arg3) : S64.Idx → EReal) (ix1 a))
      (fun a => (m ((c.tc : Thread nD τ).loc main_arg6) : S32.Idx → EReal) (ix1 a))
      (fun a => (m ((c.tc : Thread nD τ).loc main_arg9) : S16.Idx → EReal) (ix1 a)))
    (Cert.Spec.cat3 (0 : EReal)
      (fun a => (m ((c.tc : Thread nD τ).loc main_arg2) : S64x768.Idx → EReal) (ix2 a d))
      (fun a => (m ((c.tc : Thread nD τ).loc main_arg5) : S32x768.Idx → EReal) (ix2 a d))
      (fun a => (m ((c.tc : Thread nD τ).loc main_arg8) : S16x768.Idx → EReal) (ix2 a d)))
    (fun e => ?_)
    (fun j e => (iblk1_apply m c p j e).trans (entry_keys m c j e))
    (fun j => (iblk2_apply m c p j d).trans (entry_values m c j d))
    (fun j => (iblk3_apply m c p j).trans (entry_salience m c j))
  -- the query: row `512 * p + (4096 * b + t) % 512` of the query array is its row `4096 * b + t`, the launch query's row `(b, t)`
  refine (iblk0_apply m c p _ e).trans
    ((congrArg (fun R : Fin 16384 => (V m c main_v0 : S16384x768.Idx → EReal) (ix2 R e)) (Fin.ext ?_)).trans
      (entry_query m c b t e))
  show 512 * p.val + (4096 * b.val + t.val) % 512 = 4096 * b.val + t.val
  rw [hp']
  omega

end Cert.KernelIdeal.Around

end
-- ==== Proof.Algebra.lean ====
/-
  The read over 128 lanes is the read level by level.

  With every query, key, value and salience entry a real number, the lanes outside a level contribute nothing to that
  level's softmax (their masked score is `⊥`, the maximum ignores it and its exponential is `0`), the sixteen padding
  lanes carry weight `0`, a quotient by a nonzero real `D` is the product with `1 / D`, and the level weight moves
  across the finite sums. So `Cert.Spec.kernRow` of the side-by-side layout equals `Cert.Spec.refRow`.
-/
import proofs.«102644_g850403525362_cont_9to1_m_493_4_alg».proof.Proof.Spec
import Mathlib.Algebra.BigOperators.Fin
import Mathlib.Algebra.Order.BigOperators.Group.Finset
import Mathlib.Data.Finset.Lattice.Fold
import Mathlib.Data.EReal.Operations
import Mathlib.Analysis.SpecialFunctions.Exp

noncomputable section

namespace Cert.Spec

open Idealize.ShloMosaic

namespace Lanes

/-! ## Real numbers inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The quotient score of real entries is a real: the quotient by `D ≠ 0` is the product with `1 / D`. -/
theorem score_coe (q k : Fin 768 → ℝ) (D s : ℝ) (hD : D ≠ 0) :
    score (fun e => (q e : EReal)) (fun e => (k e : EReal)) (D : EReal) (s : EReal)
      = (((∑ e, q e * k e) * (1 / D) + s : ℝ) : EReal) := by
  unfold score
  rw [Ideal.div_coe hD, EReal.coe_add, EReal.coe_mul, coe_sum]
  simp only [EReal.coe_mul]

/-- The product score of real entries is the same real. -/
theorem kscore_coe (q k : Fin 768 → ℝ) (c s : ℝ) :
    kscore (fun e => (q e : EReal)) (fun e => (k e : EReal)) (c : EReal) (s : EReal)
      = (((∑ e, q e * k e) * c + s : ℝ) : EReal) := by
  unfold kscore
  rw [EReal.coe_add, EReal.coe_mul, coe_sum]
  simp only [EReal.coe_mul]

/-- A padding lane, whose key and salience are zero, scores zero. -/
theorem kscore_pad (q : Fin 768 → EReal) (c : EReal) : kscore q (fun _ => 0) c 0 = 0 := by
  unfold kscore
  simp only [mul_zero, Finset.sum_const_zero, zero_mul, add_zero]

/-! ## The lanes of one level -/

/-- Lane `lo + a` of the 128: where slot `a` of a level of `n` slots occupying the lanes `[lo, hi)` sits. -/
def lane (lo hi n : ℕ) (h : lo + n = hi) (hle : hi ≤ 128) (a : Fin n) : Fin 128 :=
  ⟨lo + a.val, by omega⟩

section Level

variable (lo hi n : ℕ) (h : lo + n = hi) (hle : hi ≤ 128)

theorem lane_val (a : Fin n) : (lane lo hi n h hle a).val = lo + a.val := rfl

theorem lane_injective : Function.Injective (lane lo hi n h hle) := by
  intro a b hab
  have hv := congrArg Fin.val hab
  rw [lane_val, lane_val] at hv
  exact Fin.ext (by omega)

/-- Every lane of `[lo, hi)` is the lane of a slot. -/
theorem lane_range (j : Fin 128) (hj : lo ≤ j.val ∧ j.val < hi) : j ∈ Set.range (lane lo hi n h hle) :=
  ⟨⟨j.val - lo, by omega⟩, Fin.ext (by show lo + (j.val - lo) = j.val; omega)⟩

/-- On a level's own lane the masked score is the score. -/
theorem masked_lane (S : Fin 128 → EReal) (a : Fin n) :
    masked lo hi S (lane lo hi n h hle a) = S (lane lo hi n h hle a) := by
  unfold masked
  rw [if_pos]
  exact ⟨by rw [lane_val]; omega, by rw [lane_val]; omega⟩

/-- Off the level the masked score is `⊥`. -/
theorem masked_off (S : Fin 128 → EReal) (j : Fin 128) (hj : ¬ (lo ≤ j.val ∧ j.val < hi)) :
    masked lo hi S j = ⊥ := by
  unfold masked
  exact if_neg hj

/-- The maximum from `⊥` over a finite family is its supremum. -/
theorem fold_max_eq_sup {ι : Type} (s : Finset ι) (f : ι → EReal) : s.fold max ⊥ f = s.sup f := rfl

/-- The maximum of the masked scores over all 128 lanes is the maximum over the level's slots: a `⊥` entry never
    raises a maximum taken from `⊥`. -/
theorem fold_masked (S : Fin 128 → EReal) :
    Finset.univ.fold max ⊥ (masked lo hi S)
      = Finset.univ.fold max ⊥ (fun a : Fin n => S (lane lo hi n h hle a)) := by
  rw [fold_max_eq_sup, fold_max_eq_sup]
  apply le_antisymm
  · refine Finset.sup_le fun j _ => ?_
    by_cases hj : lo ≤ j.val ∧ j.val < hi
    · obtain ⟨a, rfl⟩ := lane_range lo hi n h hle j hj
      rw [masked_lane]
      exact Finset.le_sup (f := fun a : Fin n => S (lane lo hi n h hle a)) (Finset.mem_univ a)
    · rw [masked_off lo hi S j hj]
      exact bot_le
  · refine Finset.sup_le fun a _ => ?_
    have hle' := Finset.le_sup (f := masked lo hi S) (Finset.mem_univ (lane lo hi n h hle a))
    rw [masked_lane] at hle'
    exact hle'

/-- The sum of the masked exponentials over all 128 lanes is the sum over the level's slots: off the level the masked
    score is `⊥`, `⊥ - m = ⊥` and the exponential of `⊥` is `0`. -/
theorem sum_masked (S : Fin 128 → EReal) (m : EReal) :
    ∑ k : Fin 128, Ideal.exp (masked lo hi S k - m)
      = ∑ a : Fin n, Ideal.exp (S (lane lo hi n h hle a) - m) := by
  refine (Fintype.sum_of_injective (lane lo hi n h hle) (lane_injective lo hi n h hle)
    (fun a : Fin n => Ideal.exp (S (lane lo hi n h hle a) - m))
    (fun k : Fin 128 => Ideal.exp (masked lo hi S k - m)) (fun k hk => ?_) (fun a => ?_)).symm
  · rw [masked_off lo hi S k (fun hj => hk (lane_range lo hi n h hle k hj)), EReal.bot_sub, Ideal.exp_bot]
  · rw [masked_lane]

/-- On its own lanes a level's masked softmax weight is the softmax weight of the level's scores. -/
theorem maskedWeight_lane (S : Fin 128 → EReal) (a : Fin n) :
    maskedWeight lo hi S (lane lo hi n h hle a) = weight (fun a => S (lane lo hi n h hle a)) a := by
  unfold maskedWeight weight
  rw [masked_lane lo hi n h hle S a, fold_masked lo hi n h hle S, sum_masked lo hi n h hle S, zero_add,
    max_eq_right bot_le]

end Level

/-! ## A level of real scores -/

/-- Over a nonempty family of reals the maximum from `⊥` is attained, so it is a real. -/
theorem fold_max_coe {n : ℕ} (hn : 0 < n) (r : Fin n → ℝ) :
    ∃ μ : ℝ, Finset.univ.fold max ⊥ (fun a => (r a : EReal)) = (μ : EReal) := by
  obtain ⟨i, -, hi⟩ := Finset.exists_mem_eq_sup Finset.univ ⟨⟨0, hn⟩, Finset.mem_univ _⟩ (fun a => (r a : EReal))
  exact ⟨r i, (fold_max_eq_sup _ _).trans hi⟩

/-- The exponentials of real scores less a real are real, and so is their sum. -/
theorem sum_exp_coe {n : ℕ} (r : Fin n → ℝ) (μ : ℝ) :
    ∑ a, Ideal.exp ((r a : EReal) - (μ : EReal)) = ((∑ a, Real.exp (r a - μ) : ℝ) : EReal) := by
  rw [coe_sum]
  refine Finset.sum_congr rfl fun a _ => ?_
  rw [← EReal.coe_sub, Ideal.exp_coe]

/-- That sum is positive when the level has a slot. -/
theorem sum_exp_pos {n : ℕ} (hn : 0 < n) (r : Fin n → ℝ) (μ : ℝ) : 0 < ∑ a, Real.exp (r a - μ) :=
  Finset.sum_pos (fun a _ => Real.exp_pos _) ⟨⟨0, hn⟩, Finset.mem_univ _⟩

/-- The softmax weight of real scores is a real: the quotient by the positive sum is the product with its inverse. -/
theorem weight_coe {n : ℕ} (hn : 0 < n) (r : Fin n → ℝ) (μ : ℝ)
    (hμ : Finset.univ.fold max ⊥ (fun a => (r a : EReal)) = (μ : EReal)) (a : Fin n) :
    weight (fun a => (r a : EReal)) a
      = ((Real.exp (r a - μ) * (1 / ∑ k, Real.exp (r k - μ)) : ℝ) : EReal) := by
  unfold weight
  rw [hμ, max_eq_right bot_le, zero_add, sum_exp_coe, Ideal.div_coe (sum_exp_pos hn r μ).ne',
    ← EReal.coe_sub, Ideal.exp_coe, ← EReal.coe_mul]

/-- Off a level of real scores the masked softmax weight is `0`: the numerator is the exponential of `⊥` and the
    denominator is a positive real. -/
theorem maskedWeight_off (lo hi n : ℕ) (h : lo + n = hi) (hle : hi ≤ 128) (hn : 0 < n) (S : Fin 128 → EReal)
    (r : Fin n → ℝ) (hr : ∀ a, S (lane lo hi n h hle a) = (r a : EReal))
    (j : Fin 128) (hj : ¬ (lo ≤ j.val ∧ j.val < hi)) : maskedWeight lo hi S j = 0 := by
  obtain ⟨μ, hμ⟩ := fold_max_coe hn r
  unfold maskedWeight
  rw [masked_off lo hi S j hj, EReal.bot_sub, Ideal.exp_bot, fold_masked lo hi n h hle S,
    sum_masked lo hi n h hle S]
  simp only [hr]
  rw [hμ, sum_exp_coe, Ideal.div_coe (sum_exp_pos hn r μ).ne', zero_mul]

/-- One level's share of the read: the level weight `w` moves out of the sum over the slots. -/
theorem level_block {n : ℕ} (hn : 0 < n) (r v : Fin n → ℝ) (w : ℝ) :
    ∑ a, (weight (fun a => (r a : EReal)) a * (w : EReal)) * (v a : EReal)
      = levelRead (fun a => (r a : EReal)) (fun a => (v a : EReal)) * (w : EReal) := by
  obtain ⟨μ, hμ⟩ := fold_max_coe hn r
  unfold levelRead
  simp only [weight_coe hn r μ hμ, ← EReal.coe_mul, ← coe_sum]
  congr 1
  rw [Finset.sum_mul]
  exact Finset.sum_congr rfl fun a _ => by ring

/-! ## The four stretches of the 128 lanes -/

/-- The first level's slot `a` on lane `a`. -/
abbrev ln0 : Fin 64 → Fin 128 := lane 0 64 64 rfl (by omega)
/-- The second level's slot `a` on lane `64 + a`. -/
abbrev ln1 : Fin 32 → Fin 128 := lane 64 96 32 rfl (by omega)
/-- The third level's slot `a` on lane `96 + a`. -/
abbrev ln2 : Fin 16 → Fin 128 := lane 96 112 16 rfl (by omega)
/-- Padding lane `112 + a`. -/
abbrev ln3 : Fin 16 → Fin 128 := lane 112 128 16 rfl (by omega)

section Cat3

variable {α : Type} (z : α) (a : Fin 64 → α) (b : Fin 32 → α) (c : Fin 16 → α)

theorem cat3_ln0 (i : Fin 64) : cat3 z a b c (ln0 i) = a i := by
  have h0 : (ln0 i).val < 64 := by show 0 + i.val < 64; omega
  unfold cat3
  rw [dif_pos h0]
  exact congrArg a (Fin.ext (by show 0 + i.val = i.val; omega))

theorem cat3_ln1 (i : Fin 32) : cat3 z a b c (ln1 i) = b i := by
  have h0 : ¬ (ln1 i).val < 64 := by show ¬ (64 + i.val < 64); omega
  have h1 : (ln1 i).val < 96 := by show 64 + i.val < 96; omega
  unfold cat3
  rw [dif_neg h0, dif_pos h1]
  exact congrArg b (Fin.ext (by show 64 + i.val - 64 = i.val; omega))

theorem cat3_ln2 (i : Fin 16) : cat3 z a b c (ln2 i) = c i := by
  have h0 : ¬ (ln2 i).val < 64 := by show ¬ (96 + i.val < 64); omega
  have h1 : ¬ (ln2 i).val < 96 := by show ¬ (96 + i.val < 96); omega
  have h2 : (ln2 i).val < 112 := by show 96 + i.val < 112; omega
  unfold cat3
  rw [dif_neg h0, dif_neg h1, dif_pos h2]
  exact congrArg c (Fin.ext (by show 96 + i.val - 96 = i.val; omega))

theorem cat3_ln3 (i : Fin 16) : cat3 z a b c (ln3 i) = z := by
  have h0 : ¬ (ln3 i).val < 64 := by show ¬ (112 + i.val < 64); omega
  have h1 : ¬ (ln3 i).val < 96 := by show ¬ (112 + i.val < 96); omega
  have h2 : ¬ (ln3 i).val < 112 := by show ¬ (112 + i.val < 112); omega
  unfold cat3
  rw [dif_neg h0, dif_neg h1, dif_neg h2]

end Cat3

/-- A sum over the 128 lanes is the sum over the three levels' lanes and the padding lanes. -/
theorem sum_lanes {M : Type} [AddCommMonoid M] (F : Fin 128 → M) :
    ∑ j, F j = ∑ i, F (ln0 i) + ∑ i, F (ln1 i) + ∑ i, F (ln2 i) + ∑ i, F (ln3 i) := by
  have e0 : ∀ i : Fin 64, Fin.castAdd 16 (Fin.castAdd 16 (Fin.castAdd 32 i)) = ln0 i :=
    fun i => Fin.ext (by show i.val = 0 + i.val; omega)
  have e1 : ∀ i : Fin 32, Fin.castAdd 16 (Fin.castAdd 16 (Fin.natAdd 64 i)) = ln1 i :=
    fun i => Fin.ext rfl
  have e2 : ∀ i : Fin 16, Fin.castAdd 16 (Fin.natAdd (64 + 32) i) = ln2 i :=
    fun i => Fin.ext rfl
  have e3 : ∀ i : Fin 16, Fin.natAdd (64 + 32 + 16) i = ln3 i :=
    fun i => Fin.ext rfl
  have hsplit := Fin.sum_univ_add (a := 64 + 32 + 16) (b := 16) F
  rw [Fin.sum_univ_add (a := 64 + 32) (b := 16), Fin.sum_univ_add (a := 64) (b := 32)] at hsplit
  simp only [e0, e1, e2, e3] at hsplit
  exact hsplit

/-! ## The two rows -/

/-- The lane scores, taken with the reciprocal `c`, are the three levels' real scores side by side, and `0` on the
    padding. -/
theorem lane_scores (q : Fin 768 → ℝ)
    (k0 : Fin 64 → Fin 768 → ℝ) (s0 : Fin 64 → ℝ) (k1 : Fin 32 → Fin 768 → ℝ) (s1 : Fin 32 → ℝ)
    (k2 : Fin 16 → Fin 768 → ℝ) (s2 : Fin 16 → ℝ) (c : ℝ) (j : Fin 128) :
    kscore (fun e => (q e : EReal))
        (fun e => cat3 (0 : EReal) (fun a => (k0 a e : EReal)) (fun a => (k1 a e : EReal)) (fun a => (k2 a e : EReal)) j)
        (c : EReal)
        (cat3 (0 : EReal) (fun a => (s0 a : EReal)) (fun a => (s1 a : EReal)) (fun a => (s2 a : EReal)) j)
      = cat3 (0 : EReal)
          (fun a => (((∑ e, q e * k0 a e) * c + s0 a : ℝ) : EReal))
          (fun a => (((∑ e, q e * k1 a e) * c + s1 a : ℝ) : EReal))
          (fun a => (((∑ e, q e * k2 a e) * c + s2 a : ℝ) : EReal)) j := by
  unfold cat3
  by_cases h0 : j.val < 64
  · simp only [dif_pos h0]
    exact kscore_coe q (k0 ⟨j.val, h0⟩) c (s0 ⟨j.val, h0⟩)
  · by_cases h1 : j.val < 96
    · simp only [dif_neg h0, dif_pos h1]
      exact kscore_coe q (k1 ⟨j.val - 64, by omega⟩) c (s1 ⟨j.val - 64, by omega⟩)
    · by_cases h2 : j.val < 112
      · simp only [dif_neg h0, dif_neg h1, dif_pos h2]
        exact kscore_coe q (k2 ⟨j.val - 96, by omega⟩) c (s2 ⟨j.val - 96, by omega⟩)
      · simp only [dif_neg h0, dif_neg h1, dif_neg h2]
        exact kscore_pad _ _

/-- The two row formulas agree on three levels of real scores and real values. -/
theorem rows_agree (r0 v0 : Fin 64 → ℝ) (r1 v1 : Fin 32 → ℝ) (r2 v2 : Fin 16 → ℝ) (w : ℝ) :
    kernRow
        (cat3 (0 : EReal) (fun a => (r0 a : EReal)) (fun a => (r1 a : EReal)) (fun a => (r2 a : EReal)))
        (cat3 (0 : EReal) (fun a => (v0 a : EReal)) (fun a => (v1 a : EReal)) (fun a => (v2 a : EReal)))
        (w : EReal)
      = refRow (fun a => (r0 a : EReal)) (fun a => (v0 a : EReal)) (fun a => (r1 a : EReal)) (fun a => (v1 a : EReal))
          (fun a => (r2 a : EReal)) (fun a => (v2 a : EReal)) (w : EReal) := by
  generalize hS : cat3 (0 : EReal) (fun a => (r0 a : EReal)) (fun a => (r1 a : EReal)) (fun a => (r2 a : EReal)) = S
  generalize hV : cat3 (0 : EReal) (fun a => (v0 a : EReal)) (fun a => (v1 a : EReal)) (fun a => (v2 a : EReal)) = V
  -- the scores and the values on each stretch of lanes
  have hS0 : ∀ i, S (ln0 i) = (r0 i : EReal) := fun i => by rw [← hS]; exact cat3_ln0 _ _ _ _ i
  have hS1 : ∀ i, S (ln1 i) = (r1 i : EReal) := fun i => by rw [← hS]; exact cat3_ln1 _ _ _ _ i
  have hS2 : ∀ i, S (ln2 i) = (r2 i : EReal) := fun i => by rw [← hS]; exact cat3_ln2 _ _ _ _ i
  have hV0 : ∀ i, V (ln0 i) = (v0 i : EReal) := fun i => by rw [← hV]; exact cat3_ln0 _ _ _ _ i
  have hV1 : ∀ i, V (ln1 i) = (v1 i : EReal) := fun i => by rw [← hV]; exact cat3_ln1 _ _ _ _ i
  have hV2 : ∀ i, V (ln2 i) = (v2 i : EReal) := fun i => by rw [← hV]; exact cat3_ln2 _ _ _ _ i
  have hV3 : ∀ i, V (ln3 i) = 0 := fun i => by rw [← hV]; exact cat3_ln3 _ _ _ _ i
  -- each level's weight on its own lanes, and off them
  have on0 : ∀ i, maskedWeight 0 64 S (ln0 i) = weight (fun a => (r0 a : EReal)) i := fun i =>
    (maskedWeight_lane 0 64 64 rfl (by omega) S i).trans (congrArg (fun x => weight x i) (funext hS0))
  have on1 : ∀ i, maskedWeight 64 96 S (ln1 i) = weight (fun a => (r1 a : EReal)) i := fun i =>
    (maskedWeight_lane 64 96 32 rfl (by omega) S i).trans (congrArg (fun x => weight x i) (funext hS1))
  have on2 : ∀ i, maskedWeight 96 112 S (ln2 i) = weight (fun a => (r2 a : EReal)) i := fun i =>
    (maskedWeight_lane 96 112 16 rfl (by omega) S i).trans (congrArg (fun x => weight x i) (funext hS2))
  have off0 := maskedWeight_off 0 64 64 rfl (by omega) (by omega) S r0 hS0
  have off1 := maskedWeight_off 64 96 32 rfl (by omega) (by omega) S r1 hS1
  have off2 := maskedWeight_off 96 112 16 rfl (by omega) (by omega) S r2 hS2
  -- the four stretches of the sum
  let F : Fin 128 → EReal := fun j =>
    ((((0 + maskedWeight 0 64 S j) + maskedWeight 64 96 S j) + maskedWeight 96 112 S j) * (w : EReal)) * V j
  have hk : kernRow S V (w : EReal) = ∑ j, F j := rfl
  have B0 : ∑ i, F (ln0 i) = levelRead (fun a => (r0 a : EReal)) (fun a => (v0 a : EReal)) * (w : EReal) := by
    rw [← level_block (by omega) r0 v0 w]
    refine Finset.sum_congr rfl fun i _ => ?_
    show ((((0 + maskedWeight 0 64 S (ln0 i)) + maskedWeight 64 96 S (ln0 i)) + maskedWeight 96 112 S (ln0 i))
      * (w : EReal)) * V (ln0 i) = _
    rw [on0 i, off1 (ln0 i) (by show ¬ (64 ≤ 0 + i.val ∧ 0 + i.val < 96); omega),
      off2 (ln0 i) (by show ¬ (96 ≤ 0 + i.val ∧ 0 + i.val < 112); omega), hV0 i, zero_add, add_zero, add_zero]
  have B1 : ∑ i, F (ln1 i) = levelRead (fun a => (r1 a : EReal)) (fun a => (v1 a : EReal)) * (w : EReal) := by
    rw [← level_block (by omega) r1 v1 w]
    refine Finset.sum_congr rfl fun i _ => ?_
    show ((((0 + maskedWeight 0 64 S (ln1 i)) + maskedWeight 64 96 S (ln1 i)) + maskedWeight 96 112 S (ln1 i))
      * (w : EReal)) * V (ln1 i) = _
    rw [on1 i, off0 (ln1 i) (by show ¬ (0 ≤ 64 + i.val ∧ 64 + i.val < 64); omega),
      off2 (ln1 i) (by show ¬ (96 ≤ 64 + i.val ∧ 64 + i.val < 112); omega), hV1 i, zero_add, zero_add, add_zero]
  have B2 : ∑ i, F (ln2 i) = levelRead (fun a => (r2 a : EReal)) (fun a => (v2 a : EReal)) * (w : EReal) := by
    rw [← level_block (by omega) r2 v2 w]
    refine Finset.sum_congr rfl fun i _ => ?_
    show ((((0 + maskedWeight 0 64 S (ln2 i)) + maskedWeight 64 96 S (ln2 i)) + maskedWeight 96 112 S (ln2 i))
      * (w : EReal)) * V (ln2 i) = _
    rw [on2 i, off0 (ln2 i) (by show ¬ (0 ≤ 96 + i.val ∧ 96 + i.val < 64); omega),
      off1 (ln2 i) (by show ¬ (64 ≤ 96 + i.val ∧ 96 + i.val < 96); omega), hV2 i, zero_add, zero_add, zero_add]
  have B3 : ∑ i, F (ln3 i) = 0 := by
    refine Finset.sum_eq_zero fun i _ => ?_
    show ((((0 + maskedWeight 0 64 S (ln3 i)) + maskedWeight 64 96 S (ln3 i)) + maskedWeight 96 112 S (ln3 i))
      * (w : EReal)) * V (ln3 i) = 0
    rw [hV3 i, mul_zero]
  rw [hk, sum_lanes F, B0, B1, B2, B3, add_zero]
  unfold refRow
  rw [zero_add]

end Lanes

open Lanes in
/-- The two row formulas agree on real entries. -/
theorem kernRow_eq_refRow (q : Fin 768 → ℝ)
    (k0 : Fin 64 → Fin 768 → ℝ) (v0 s0 : Fin 64 → ℝ)
    (k1 : Fin 32 → Fin 768 → ℝ) (v1 s1 : Fin 32 → ℝ)
    (k2 : Fin 16 → Fin 768 → ℝ) (v2 s2 : Fin 16 → ℝ)
    (D w : ℝ) (hD : D ≠ 0) :
    kernRow
        (fun j => kscore (fun e => (q e : EReal))
          (fun e => cat3 (0 : EReal) (fun a => (k0 a e : EReal)) (fun a => (k1 a e : EReal)) (fun a => (k2 a e : EReal)) j)
          ((1 / D : ℝ) : EReal)
          (cat3 (0 : EReal) (fun a => (s0 a : EReal)) (fun a => (s1 a : EReal)) (fun a => (s2 a : EReal)) j))
        (cat3 (0 : EReal) (fun a => (v0 a : EReal)) (fun a => (v1 a : EReal)) (fun a => (v2 a : EReal)))
        (w : EReal)
      = refRow
        (fun j => score (fun e => (q e : EReal)) (fun e => (k0 j e : EReal)) (D : EReal) (s0 j)) (fun j => (v0 j : EReal))
        (fun j => score (fun e => (q e : EReal)) (fun e => (k1 j e : EReal)) (D : EReal) (s1 j)) (fun j => (v1 j : EReal))
        (fun j => score (fun e => (q e : EReal)) (fun e => (k2 j e : EReal)) (D : EReal) (s2 j)) (fun j => (v2 j : EReal))
        (w : EReal) := by
  simp only [lane_scores, score_coe _ _ _ _ hD]
  exact rows_agree (fun a => (∑ e, q e * k0 a e) * (1 / D) + s0 a) v0
    (fun a => (∑ e, q e * k1 a e) * (1 / D) + s1 a) v1
    (fun a => (∑ e, q e * k2 a e) * (1 / D) + s2 a) v2 w

end Cert.Spec

end
-- ==== Proof.Consts.lean ====
/-
  The two float constants the reference spells, as the reals their patterns denote: the divisor of the scores,
  `14529495 / 524288` (the float nearest the square root of 768), and the level weight `11184811 / 33554432` (the float
  nearest one third). The kernel's scale is named the exact reciprocal of the first, `524288 / 14529495`.
-/
import Idealize.ShloMosaic.PureOps.Ideal

noncomputable section

namespace Cert.Consts

open Idealize.ShloMosaic

/-- The divisor of the scores. -/
theorem ofBits_divisor : Ideal.ofBits .f32 0x41DDB3D7#32 = ((14529495 / 524288 : ℝ) : EReal) := by
  simp [Ideal.ofBits, Ideal.ieee, -EReal.coe_mul]; norm_num

/-- The level weight. -/
theorem ofBits_weight : Ideal.ofBits .f32 0x3EAAAAAB#32 = ((11184811 / 33554432 : ℝ) : EReal) := by
  simp [Ideal.ofBits, Ideal.ieee, -EReal.coe_mul]; norm_num

/-- The named scale is the reciprocal of the divisor. -/
theorem recip_divisor : ((1 / (14529495 / 524288 : ℝ) : ℝ) : EReal) = ((524288 / 14529495 : ℝ) : EReal) := by
  norm_num

/-- The divisor is not zero. -/
theorem divisor_ne_zero : (14529495 / 524288 : ℝ) ≠ 0 := by norm_num

end Cert.Consts

end
-- ==== Proof.RowsReal.lean ====
/-
  The two row formulas agree on arrays of extended reals all of whose entries are real, with the constants as the
  programs spell them: the kernel's scale read as `524288 / 14529495`, the reference's divisor the float
  `14529495 / 524288` of which that is the exact reciprocal, and the level weight the same float on both sides.
-/
import proofs.«102644_g850403525362_cont_9to1_m_493_4_alg».proof.Proof.Algebra
import proofs.«102644_g850403525362_cont_9to1_m_493_4_alg».proof.Proof.Consts

noncomputable section

namespace Cert.Spec

open Idealize.ShloMosaic

/-- The read over 128 lanes of the stacked, padded arrays is the read level by level, when every entry is real. -/
theorem kernRow_eq_refRow_of_real (Q : Fin 768 → EReal)
    (K0 : Fin 64 → Fin 768 → EReal) (V0 S0 : Fin 64 → EReal)
    (K1 : Fin 32 → Fin 768 → EReal) (V1 S1 : Fin 32 → EReal)
    (K2 : Fin 16 → Fin 768 → EReal) (V2 S2 : Fin 16 → EReal)
    (hQ : ∀ e, ∃ r : ℝ, Q e = (r : EReal))
    (hK0 : ∀ j e, ∃ r : ℝ, K0 j e = (r : EReal)) (hV0 : ∀ j, ∃ r : ℝ, V0 j = (r : EReal)) (hS0 : ∀ j, ∃ r : ℝ, S0 j = (r : EReal))
    (hK1 : ∀ j e, ∃ r : ℝ, K1 j e = (r : EReal)) (hV1 : ∀ j, ∃ r : ℝ, V1 j = (r : EReal)) (hS1 : ∀ j, ∃ r : ℝ, S1 j = (r : EReal))
    (hK2 : ∀ j e, ∃ r : ℝ, K2 j e = (r : EReal)) (hV2 : ∀ j, ∃ r : ℝ, V2 j = (r : EReal)) (hS2 : ∀ j, ∃ r : ℝ, S2 j = (r : EReal)) :
    kernRow
        (fun j => kscore Q (fun e => cat3 (0 : EReal) (fun a => K0 a e) (fun a => K1 a e) (fun a => K2 a e) j)
          ((524288 / 14529495 : ℝ) : EReal) (cat3 (0 : EReal) S0 S1 S2 j))
        (cat3 (0 : EReal) V0 V1 V2)
        (Ideal.ofBits .f32 0x3EAAAAAB#32)
      = refRow
        (fun j => score Q (K0 j) (Ideal.ofBits .f32 0x41DDB3D7#32) (S0 j)) V0
        (fun j => score Q (K1 j) (Ideal.ofBits .f32 0x41DDB3D7#32) (S1 j)) V1
        (fun j => score Q (K2 j) (Ideal.ofBits .f32 0x41DDB3D7#32) (S2 j)) V2
        (Ideal.ofBits .f32 0x3EAAAAAB#32) := by
  -- every array is the coercion of an array of reals
  choose q hq using hQ
  choose k0 hk0 using hK0
  choose v0 hv0 using hV0
  choose s0 hs0 using hS0
  choose k1 hk1 using hK1
  choose v1 hv1 using hV1
  choose s1 hs1 using hS1
  choose k2 hk2 using hK2
  choose v2 hv2 using hV2
  choose s2 hs2 using hS2
  obtain rfl : Q = fun e => (q e : EReal) := funext hq
  obtain rfl : K0 = fun j e => (k0 j e : EReal) := funext fun j => funext (hk0 j)
  obtain rfl : V0 = fun j => (v0 j : EReal) := funext hv0
  obtain rfl : S0 = fun j => (s0 j : EReal) := funext hs0
  obtain rfl : K1 = fun j e => (k1 j e : EReal) := funext fun j => funext (hk1 j)
  obtain rfl : V1 = fun j => (v1 j : EReal) := funext hv1
  obtain rfl : S1 = fun j => (s1 j : EReal) := funext hs1
  obtain rfl : K2 = fun j e => (k2 j e : EReal) := funext fun j => funext (hk2 j)
  obtain rfl : V2 = fun j => (v2 j : EReal) := funext hv2
  obtain rfl : S2 = fun j => (s2 j : EReal) := funext hs2
  -- the divisor and the level weight are reals, and the scale is the divisor's reciprocal
  rw [Cert.Consts.ofBits_divisor, Cert.Consts.ofBits_weight, ← Cert.Consts.recip_divisor]
  exact kernRow_eq_refRow q k0 v0 s0 k1 v1 s1 k2 v2 s2 (14529495 / 524288) (11184811 / 33554432)
    Cert.Consts.divisor_ne_zero

end Cert.Spec

end
-- ==== Proof.RefRead.lean ====
/-
  The reference's result read at one index: level by level it is `Cert.Spec.refRow` of that row's scores and the
  levels' values.

  Each level runs the same steps on its own arrays, and each step is read here at one query row `(b, t)`: the scores of
  the row against the level's keys; the row's largest score, a maximum from `⊥` taken against `⊥` once more; the
  exponentials of the scores less that maximum; their sum from zero; the quotients; the sum of the level's values
  weighted by the quotients. Together the steps are `Cert.Spec.levelRead` of the row's scores. The three levels' reads,
  each times the level weight and added from zero in the order of the levels, are `Cert.Spec.refRow`.
-/
import proofs.«102644_g850403525362_cont_9to1_m_493_4_alg».proof.Proof.Gen.ReferenceIdeal.Run
import proofs.«102644_g850403525362_cont_9to1_m_493_4_alg».proof.Proof.Gen.ReferenceIdeal.Read
import proofs.«102644_g850403525362_cont_9to1_m_493_4_alg».proof.Proof.Spec
import Idealize.ShloMosaic.Lib.ValueIdx
import Idealize.ShloMosaic.PureOps.Reduce
import Idealize.ShloMosaic.PureOps.Ideal.Laws

noncomputable section

namespace Cert.ReferenceIdeal.RowRead

open Cert.ReferenceIdeal Cert.ReferenceIdeal.Gen Cert.ReferenceIdeal.Read Idealize.ShloMosaic Idealize.ShloMosaic.ValueIdx

/-! ## Two facts every level uses -/

/-- The pattern of `-∞` denotes `⊥`. -/
theorem ofBits_negInf : Ideal.ofBits .f32 0xFF800000#32 = ⊥ := by simp [Ideal.ofBits, Ideal.ieee]

/-- A reduction by `max` along one axis, read at a result index `j`: the fold of `max`, from the initial scalar, over
    that axis's coordinates `k` of the operand at `j` with `k` put back on the reduced axis. -/
theorem hostMax_single {s t u : Shape} {a : Fin s.rank} (h' : s.ReducesTo [a] t) (h : s.Reduces [a] t)
    (x : s.Idx → EReal) (init : u.Idx → EReal) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

/-! ## The level of 64 slots -/

section Level64

variable (x0 : (⟨S4x4096x768, .f32⟩ : BufTy).Contents (Elt Ideal))
  (x1 x2 : (⟨S64x768, .f32⟩ : BufTy).Contents (Elt Ideal)) (x3 : (⟨S64, .f32⟩ : BufTy).Contents (Elt Ideal))
  (b : Fin 4) (t : Fin 4096)

/-! Where each stage reads its operands, for the row `(b, t)`: slot `j`, feature `e` or `d`. -/

theorem lidx_v1 (j : Fin 64) (e : Fin 768) : lidx_main_v1 (ix3 b t j) e = ix3 b t e :=
  funext fun a => Fin.ext (by match a with | ⟨0, _⟩ => rfl | ⟨1, _⟩ => rfl | ⟨2, _⟩ => rfl)

theorem ridx_v1 (j : Fin 64) (e : Fin 768) : ridx_main_v1 (ix3 b t j) e = ix2 j e :=
  funext fun a => Fin.ext (by match a with | ⟨0, _⟩ => rfl | ⟨1, _⟩ => rfl)

theorem idx_v4_v5 (j : Fin 64) : idx_main_v4 (idx_main_v5 (ix3 b t j)) = ix1 j :=
  funext fun a => Fin.ext (by match a with | ⟨0, _⟩ => rfl)

theorem idx_v10_v11 (j : Fin 64) : idx_main_v10 (idx_main_v11 (ix3 b t j)) = ix2 b t :=
  funext fun a => Fin.ext (by match a with | ⟨0, _⟩ => rfl | ⟨1, _⟩ => rfl)

theorem idx_v14 (j : Fin 64) : idx_main_v14 (ix2 b t) j = ix3 b t j :=
  funext fun a => Fin.ext (by match a with | ⟨0, _⟩ => rfl | ⟨1, _⟩ => rfl | ⟨2, _⟩ => rfl)

theorem idx_v15_v16 (j : Fin 64) : idx_main_v15 (idx_main_v16 (ix3 b t j)) = ix2 b t :=
  funext fun a => Fin.ext (by match a with | ⟨0, _⟩ => rfl | ⟨1, _⟩ => rfl)

theorem lidx_v18 (d : Fin 768) (j : Fin 64) : lidx_main_v18 (ix3 b t d) j = ix3 b t j :=
  funext fun a => Fin.ext (by match a with | ⟨0, _⟩ => rfl | ⟨1, _⟩ => rfl | ⟨2, _⟩ => rfl)

theorem ridx_v18 (d : Fin 768) (j : Fin 64) : ridx_main_v18 (ix3 b t d) j = ix2 j d :=
  funext fun a => Fin.ext (by match a with | ⟨0, _⟩ => rfl | ⟨1, _⟩ => rfl)

/-- The score of slot `j`: the row's dot product with the slot's key, over `D`, plus the slot's salience. -/
theorem score_64 (j : Fin 64) :
    val_main_v6 (F := Ideal) x0 x1 x3 (ix3 b t j)
      = Cert.Spec.score (fun e => x0 (ix3 b t e)) (fun e => x1 (ix2 j e)) (Ideal.ofBits .f32 0x41DDB3D7#32) (x3 (ix1 j)) := by
  rw [val_main_v6_apply, val_main_v3_apply, val_main_v1_apply, val_main_v2_apply, val_main_cst_0_apply,
    val_main_v5_apply, val_main_v4_apply, idx_v4_v5]
  simp only [lidx_v1, ridx_v1, Ideal.addf_def, Ideal.hostDivf_def, Ideal.ofBits_def, Cert.Spec.score]

/-- The row's largest score: the maximum of the scores from `⊥`, taken against `⊥` once more. -/
theorem rowMax_64 :
    val_main_v9 (F := Ideal) x0 x1 x3 (ix2 b t)
      = max ⊥ (Finset.univ.fold max ⊥ fun j : Fin 64 => val_main_v6 (F := Ideal) x0 x1 x3 (ix3 b t j)) := by
  rw [val_main_v9_apply, val_main_v8_apply, val_main_cst_2_apply]
  unfold val_main_v7
  generalize val_main_v6 (F := Ideal) x0 x1 x3 = y
  rw [hostMax_single reducesTo_S4x4096x64_S4x4096_d2 (by decide) y (val_main_cst_1 (F := Ideal)) h_S_ (ix2 b t),
    val_main_cst_1_apply]
  simp only [Ideal.maximumf_def, Ideal.ofBits_def, ofBits_negInf]
  refine congrArg (max ⊥) (Finset.fold_congr fun k _ => ?_)
  exact congrArg y (funext fun a => Fin.ext (by match a with | ⟨0, _⟩ => rfl | ⟨1, _⟩ => rfl | ⟨2, _⟩ => rfl))

/-- The exponential of slot `j`'s score less the row's largest. -/
theorem exp_64 (j : Fin 64) :
    val_main_v13 (F := Ideal) x0 x1 x3 (ix3 b t j)
      = Ideal.exp (val_main_v6 (F := Ideal) x0 x1 x3 (ix3 b t j) - val_main_v9 (F := Ideal) x0 x1 x3 (ix2 b t)) := by
  rw [val_main_v13_apply, val_main_v12_apply, val_main_v11_apply, val_main_v10_apply, idx_v10_v11]
  simp only [Ideal.hostUnary_exp_def, Ideal.subf_def]

/-- The row's sum of exponentials, from zero. -/
theorem expSum_64 :
    val_main_v14 (F := Ideal) x0 x1 x3 (ix2 b t)
      = 0 + ∑ j : Fin 64, val_main_v13 (F := Ideal) x0 x1 x3 (ix3 b t j) := by
  rw [val_main_v14_apply, val_main_cst_3_apply, Ideal.ofBits_def, Ideal.ofBits_zero_f32]
  simp only [idx_v14]

/-- The weight of slot `j`: its exponential over the row's sum. -/
theorem quot_64 (j : Fin 64) :
    val_main_v17 (F := Ideal) x0 x1 x3 (ix3 b t j)
      = Ideal.div (val_main_v13 (F := Ideal) x0 x1 x3 (ix3 b t j)) (val_main_v14 (F := Ideal) x0 x1 x3 (ix2 b t)) := by
  rw [val_main_v17_apply, val_main_v16_apply, val_main_v15_apply, idx_v15_v16]
  simp only [Ideal.hostDivf_def]

/-- The level's read at feature `d`: its values at `d` weighted by the row's weights, which is `Cert.Spec.levelRead` of
    the row's scores. -/
theorem level_64 (d : Fin 768) :
    val_main_v18 (F := Ideal) x0 x1 x2 x3 (ix3 b t d)
      = Cert.Spec.levelRead
          (fun j => Cert.Spec.score (fun e => x0 (ix3 b t e)) (fun e => x1 (ix2 j e)) (Ideal.ofBits .f32 0x41DDB3D7#32) (x3 (ix1 j)))
          (fun j => x2 (ix2 j d)) := by
  rw [val_main_v18_apply]
  simp only [lidx_v18, ridx_v18, quot_64, expSum_64, exp_64, rowMax_64, score_64, Cert.Spec.levelRead, Cert.Spec.weight]

end Level64

/-! ## The level of 32 slots -/

section Level32

variable (x0 : (⟨S4x4096x768, .f32⟩ : BufTy).Contents (Elt Ideal))
  (x4 x5 : (⟨S32x768, .f32⟩ : BufTy).Contents (Elt Ideal)) (x6 : (⟨S32, .f32⟩ : BufTy).Contents (Elt Ideal))
  (b : Fin 4) (t : Fin 4096)

/-! Where each stage reads its operands, for the row `(b, t)`: slot `j`, feature `e` or `d`. -/

theorem lidx_v22 (j : Fin 32) (e : Fin 768) : lidx_main_v22 (ix3 b t j) e = ix3 b t e :=
  funext fun a => Fin.ext (by match a with | ⟨0, _⟩ => rfl | ⟨1, _⟩ => rfl | ⟨2, _⟩ => rfl)

theorem ridx_v22 (j : Fin 32) (e : Fin 768) : ridx_main_v22 (ix3 b t j) e = ix2 j e :=
  funext fun a => Fin.ext (by match a with | ⟨0, _⟩ => rfl | ⟨1, _⟩ => rfl)

theorem idx_v25_v26 (j : Fin 32) : idx_main_v25 (idx_main_v26 (ix3 b t j)) = ix1 j :=
  funext fun a => Fin.ext (by match a with | ⟨0, _⟩ => rfl)

theorem idx_v31_v32 (j : Fin 32) : idx_main_v31 (idx_main_v32 (ix3 b t j)) = ix2 b t :=
  funext fun a => Fin.ext (by match a with | ⟨0, _⟩ => rfl | ⟨1, _⟩ => rfl)

theorem idx_v35 (j : Fin 32) : idx_main_v35 (ix2 b t) j = ix3 b t j :=
  funext fun a => Fin.ext (by match a with | ⟨0, _⟩ => rfl | ⟨1, _⟩ => rfl | ⟨2, _⟩ => rfl)

theorem idx_v36_v37 (j : Fin 32) : idx_main_v36 (idx_main_v37 (ix3 b t j)) = ix2 b t :=
  funext fun a => Fin.ext (by match a with | ⟨0, _⟩ => rfl | ⟨1, _⟩ => rfl)

theorem lidx_v39 (d : Fin 768) (j : Fin 32) : lidx_main_v39 (ix3 b t d) j = ix3 b t j :=
  funext fun a => Fin.ext (by match a with | ⟨0, _⟩ => rfl | ⟨1, _⟩ => rfl | ⟨2, _⟩ => rfl)

theorem ridx_v39 (d : Fin 768) (j : Fin 32) : ridx_main_v39 (ix3 b t d) j = ix2 j d :=
  funext fun a => Fin.ext (by match a with | ⟨0, _⟩ => rfl | ⟨1, _⟩ => rfl)

/-- The score of slot `j`: the row's dot product with the slot's key, over `D`, plus the slot's salience. -/
theorem score_32 (j : Fin 32) :
    val_main_v27 (F := Ideal) x0 x4 x6 (ix3 b t j)
      = Cert.Spec.score (fun e => x0 (ix3 b t e)) (fun e => x4 (ix2 j e)) (Ideal.ofBits .f32 0x41DDB3D7#32) (x6 (ix1 j)) := by
  rw [val_main_v27_apply, val_main_v24_apply, val_main_v22_apply, val_main_v23_apply, val_main_cst_5_apply,
    val_main_v26_apply, val_main_v25_apply, idx_v25_v26]
  simp only [lidx_v22, ridx_v22, Ideal.addf_def, Ideal.hostDivf_def, Ideal.ofBits_def, Cert.Spec.score]

/-- The row's largest score: the maximum of the scores from `⊥`, taken against `⊥` once more. -/
theorem rowMax_32 :
    val_main_v30 (F := Ideal) x0 x4 x6 (ix2 b t)
      = max ⊥ (Finset.univ.fold max ⊥ fun j : Fin 32 => val_main_v27 (F := Ideal) x0 x4 x6 (ix3 b t j)) := by
  rw [val_main_v30_apply, val_main_v29_apply, val_main_cst_7_apply]
  unfold val_main_v28
  generalize val_main_v27 (F := Ideal) x0 x4 x6 = y
  rw [hostMax_single reducesTo_S4x4096x32_S4x4096_d2 (by decide) y (val_main_cst_6 (F := Ideal)) h_S_ (ix2 b t),
    val_main_cst_6_apply]
  simp only [Ideal.maximumf_def, Ideal.ofBits_def, ofBits_negInf]
  refine congrArg (max ⊥) (Finset.fold_congr fun k _ => ?_)
  exact congrArg y (funext fun a => Fin.ext (by match a with | ⟨0, _⟩ => rfl | ⟨1, _⟩ => rfl | ⟨2, _⟩ => rfl))

/-- The exponential of slot `j`'s score less the row's largest. -/
theorem exp_32 (j : Fin 32) :
    val_main_v34 (F := Ideal) x0 x4 x6 (ix3 b t j)
      = Ideal.exp (val_main_v27 (F := Ideal) x0 x4 x6 (ix3 b t j) - val_main_v30 (F := Ideal) x0 x4 x6 (ix2 b t)) := by
  rw [val_main_v34_apply, val_main_v33_apply, val_main_v32_apply, val_main_v31_apply, idx_v31_v32]
  simp only [Ideal.hostUnary_exp_def, Ideal.subf_def]

/-- The row's sum of exponentials, from zero. -/
theorem expSum_32 :
    val_main_v35 (F := Ideal) x0 x4 x6 (ix2 b t)
      = 0 + ∑ j : Fin 32, val_main_v34 (F := Ideal) x0 x4 x6 (ix3 b t j) := by
  rw [val_main_v35_apply, val_main_cst_8_apply, Ideal.ofBits_def, Ideal.ofBits_zero_f32]
  simp only [idx_v35]

/-- The weight of slot `j`: its exponential over the row's sum. -/
theorem quot_32 (j : Fin 32) :
    val_main_v38 (F := Ideal) x0 x4 x6 (ix3 b t j)
      = Ideal.div (val_main_v34 (F := Ideal) x0 x4 x6 (ix3 b t j)) (val_main_v35 (F := Ideal) x0 x4 x6 (ix2 b t)) := by
  rw [val_main_v38_apply, val_main_v37_apply, val_main_v36_apply, idx_v36_v37]
  simp only [Ideal.hostDivf_def]

/-- The level's read at feature `d`: its values at `d` weighted by the row's weights, which is `Cert.Spec.levelRead` of
    the row's scores. -/
theorem level_32 (d : Fin 768) :
    val_main_v39 (F := Ideal) x0 x4 x5 x6 (ix3 b t d)
      = Cert.Spec.levelRead
          (fun j => Cert.Spec.score (fun e => x0 (ix3 b t e)) (fun e => x4 (ix2 j e)) (Ideal.ofBits .f32 0x41DDB3D7#32) (x6 (ix1 j)))
          (fun j => x5 (ix2 j d)) := by
  rw [val_main_v39_apply]
  simp only [lidx_v39, ridx_v39, quot_32, expSum_32, exp_32, rowMax_32, score_32, Cert.Spec.levelRead, Cert.Spec.weight]

end Level32

/-! ## The level of 16 slots -/

section Level16

variable (x0 : (⟨S4x4096x768, .f32⟩ : BufTy).Contents (Elt Ideal))
  (x7 x8 : (⟨S16x768, .f32⟩ : BufTy).Contents (Elt Ideal)) (x9 : (⟨S16, .f32⟩ : BufTy).Contents (Elt Ideal))
  (b : Fin 4) (t : Fin 4096)

/-! Where each stage reads its operands, for the row `(b, t)`: slot `j`, feature `e` or `d`. -/

theorem lidx_v43 (j : Fin 16) (e : Fin 768) : lidx_main_v43 (ix3 b t j) e = ix3 b t e :=
  funext fun a => Fin.ext (by match a with | ⟨0, _⟩ => rfl | ⟨1, _⟩ => rfl | ⟨2, _⟩ => rfl)

theorem ridx_v43 (j : Fin 16) (e : Fin 768) : ridx_main_v43 (ix3 b t j) e = ix2 j e :=
  funext fun a => Fin.ext (by match a with | ⟨0, _⟩ => rfl | ⟨1, _⟩ => rfl)

theorem idx_v46_v47 (j : Fin 16) : idx_main_v46 (idx_main_v47 (ix3 b t j)) = ix1 j :=
  funext fun a => Fin.ext (by match a with | ⟨0, _⟩ => rfl)

theorem idx_v52_v53 (j : Fin 16) : idx_main_v52 (idx_main_v53 (ix3 b t j)) = ix2 b t :=
  funext fun a => Fin.ext (by match a with | ⟨0, _⟩ => rfl | ⟨1, _⟩ => rfl)

theorem idx_v56 (j : Fin 16) : idx_main_v56 (ix2 b t) j = ix3 b t j :=
  funext fun a => Fin.ext (by match a with | ⟨0, _⟩ => rfl | ⟨1, _⟩ => rfl | ⟨2, _⟩ => rfl)

theorem idx_v57_v58 (j : Fin 16) : idx_main_v57 (idx_main_v58 (ix3 b t j)) = ix2 b t :=
  funext fun a => Fin.ext (by match a with | ⟨0, _⟩ => rfl | ⟨1, _⟩ => rfl)

theorem lidx_v60 (d : Fin 768) (j : Fin 16) : lidx_main_v60 (ix3 b t d) j = ix3 b t j :=
  funext fun a => Fin.ext (by match a with | ⟨0, _⟩ => rfl | ⟨1, _⟩ => rfl | ⟨2, _⟩ => rfl)

theorem ridx_v60 (d : Fin 768) (j : Fin 16) : ridx_main_v60 (ix3 b t d) j = ix2 j d :=
  funext fun a => Fin.ext (by match a with | ⟨0, _⟩ => rfl | ⟨1, _⟩ => rfl)

/-- The score of slot `j`: the row's dot product with the slot's key, over `D`, plus the slot's salience. -/
theorem score_16 (j : Fin 16) :
    val_main_v48 (F := Ideal) x0 x7 x9 (ix3 b t j)
      = Cert.Spec.score (fun e => x0 (ix3 b t e)) (fun e => x7 (ix2 j e)) (Ideal.ofBits .f32 0x41DDB3D7#32) (x9 (ix1 j)) := by
  rw [val_main_v48_apply, val_main_v45_apply, val_main_v43_apply, val_main_v44_apply, val_main_cst_10_apply,
    val_main_v47_apply, val_main_v46_apply, idx_v46_v47]
  simp only [lidx_v43, ridx_v43, Ideal.addf_def, Ideal.hostDivf_def, Ideal.ofBits_def, Cert.Spec.score]

/-- The row's largest score: the maximum of the scores from `⊥`, taken against `⊥` once more. -/
theorem rowMax_16 :
    val_main_v51 (F := Ideal) x0 x7 x9 (ix2 b t)
      = max ⊥ (Finset.univ.fold max ⊥ fun j : Fin 16 => val_main_v48 (F := Ideal) x0 x7 x9 (ix3 b t j)) := by
  rw [val_main_v51_apply, val_main_v50_apply, val_main_cst_12_apply]
  unfold val_main_v49
  generalize val_main_v48 (F := Ideal) x0 x7 x9 = y
  rw [hostMax_single reducesTo_S4x4096x16_S4x4096_d2 (by decide) y (val_main_cst_11 (F := Ideal)) h_S_ (ix2 b t),
    val_main_cst_11_apply]
  simp only [Ideal.maximumf_def, Ideal.ofBits_def, ofBits_negInf]
  refine congrArg (max ⊥) (Finset.fold_congr fun k _ => ?_)
  exact congrArg y (funext fun a => Fin.ext (by match a with | ⟨0, _⟩ => rfl | ⟨1, _⟩ => rfl | ⟨2, _⟩ => rfl))

/-- The exponential of slot `j`'s score less the row's largest. -/
theorem exp_16 (j : Fin 16) :
    val_main_v55 (F := Ideal) x0 x7 x9 (ix3 b t j)
      = Ideal.exp (val_main_v48 (F := Ideal) x0 x7 x9 (ix3 b t j) - val_main_v51 (F := Ideal) x0 x7 x9 (ix2 b t)) := by
  rw [val_main_v55_apply, val_main_v54_apply, val_main_v53_apply, val_main_v52_apply, idx_v52_v53]
  simp only [Ideal.hostUnary_exp_def, Ideal.subf_def]

/-- The row's sum of exponentials, from zero. -/
theorem expSum_16 :
    val_main_v56 (F := Ideal) x0 x7 x9 (ix2 b t)
      = 0 + ∑ j : Fin 16, val_main_v55 (F := Ideal) x0 x7 x9 (ix3 b t j) := by
  rw [val_main_v56_apply, val_main_cst_13_apply, Ideal.ofBits_def, Ideal.ofBits_zero_f32]
  simp only [idx_v56]

/-- The weight of slot `j`: its exponential over the row's sum. -/
theorem quot_16 (j : Fin 16) :
    val_main_v59 (F := Ideal) x0 x7 x9 (ix3 b t j)
      = Ideal.div (val_main_v55 (F := Ideal) x0 x7 x9 (ix3 b t j)) (val_main_v56 (F := Ideal) x0 x7 x9 (ix2 b t)) := by
  rw [val_main_v59_apply, val_main_v58_apply, val_main_v57_apply, idx_v57_v58]
  simp only [Ideal.hostDivf_def]

/-- The level's read at feature `d`: its values at `d` weighted by the row's weights, which is `Cert.Spec.levelRead` of
    the row's scores. -/
theorem level_16 (d : Fin 768) :
    val_main_v60 (F := Ideal) x0 x7 x8 x9 (ix3 b t d)
      = Cert.Spec.levelRead
          (fun j => Cert.Spec.score (fun e => x0 (ix3 b t e)) (fun e => x7 (ix2 j e)) (Ideal.ofBits .f32 0x41DDB3D7#32) (x9 (ix1 j)))
          (fun j => x8 (ix2 j d)) := by
  rw [val_main_v60_apply]
  simp only [lidx_v60, ridx_v60, quot_16, expSum_16, exp_16, rowMax_16, score_16, Cert.Spec.levelRead, Cert.Spec.weight]

end Level16

/-! ## The three levels together -/

/-- The last stage of the reference at `(b, t, d)`: the three levels' reads of query row `(b, t)` at feature `d`. -/
theorem ref_apply (x0 : (⟨S4x4096x768, .f32⟩ : BufTy).Contents (Elt Ideal))
    (x1 x2 : (⟨S64x768, .f32⟩ : BufTy).Contents (Elt Ideal)) (x3 : (⟨S64, .f32⟩ : BufTy).Contents (Elt Ideal))
    (x4 x5 : (⟨S32x768, .f32⟩ : BufTy).Contents (Elt Ideal)) (x6 : (⟨S32, .f32⟩ : BufTy).Contents (Elt Ideal))
    (x7 x8 : (⟨S16x768, .f32⟩ : BufTy).Contents (Elt Ideal)) (x9 : (⟨S16, .f32⟩ : BufTy).Contents (Elt Ideal))
    (b : Fin 4) (t : Fin 4096) (d : Fin 768) :
    Cert.ReferenceIdeal.Read.val_main_v63 (F := Ideal) x0 x1 x2 x3 x4 x5 x6 x7 x8 x9 (ix3 b t d)
      = Cert.Spec.refRow
          (fun j => Cert.Spec.score (fun e => x0 (ix3 b t e)) (fun e => x1 (ix2 j e)) (Ideal.ofBits .f32 0x41DDB3D7#32) (x3 (ix1 j)))
          (fun j => x2 (ix2 j d))
          (fun j => Cert.Spec.score (fun e => x0 (ix3 b t e)) (fun e => x4 (ix2 j e)) (Ideal.ofBits .f32 0x41DDB3D7#32) (x6 (ix1 j)))
          (fun j => x5 (ix2 j d))
          (fun j => Cert.Spec.score (fun e => x0 (ix3 b t e)) (fun e => x7 (ix2 j e)) (Ideal.ofBits .f32 0x41DDB3D7#32) (x9 (ix1 j)))
          (fun j => x8 (ix2 j d))
          (Ideal.ofBits .f32 0x3EAAAAAB#32) := by
  rw [val_main_v63_apply, val_main_v42_apply, val_main_v21_apply, val_main_v0_apply, val_main_cst_apply,
    val_main_v20_apply, val_main_v19_apply, val_main_cst_4_apply,
    val_main_v41_apply, val_main_v40_apply, val_main_cst_9_apply,
    val_main_v62_apply, val_main_v61_apply, val_main_cst_14_apply,
    level_64, level_32, level_16]
  simp only [Ideal.addf_def, Ideal.mulf_def, Ideal.ofBits_def, Ideal.ofBits_zero_f32, Cert.Spec.refRow]

end Cert.ReferenceIdeal.RowRead

end
-- ==== Proof.Finite.lean ====
/-
  Under the precondition every entry of every argument array is a real number: the precondition says that the absolute
  value of each entry is below `+∞`, and an extended real whose absolute value is below `+∞` is neither infinity.
-/
import proofs.«102644_g850403525362_cont_9to1_m_493_4_alg».proof.Defs
import Idealize.ShloMosaic.Lib.ReduceAll

noncomputable section

namespace Cert.KernelIdeal.Finite

open Cert.KernelIdeal Idealize.ShloMosaic Idealize.ShloMosaic.TcCoe Idealize.SL.Sem

/-- The shape with no axes has exactly one index, the empty tuple of coordinates. -/
instance : Subsingleton Cert.Pre_finite_inputs.S_.Idx := ⟨fun a b => funext fun d => d.elim0⟩

/-- The single-precision pattern with all exponent bits set and no fraction bit denotes `+∞`. -/
theorem inf_bits : Ideal.ofBits .f32 0x7F800000#32 = (⊤ : EReal) := by simp [Ideal.ofBits, Ideal.ieee]

/-- An extended real whose absolute value `max x (-x)` lies below `+∞` is a real number: at `-∞` the negation is
    `+∞`, at `+∞` the number itself is, and in both cases the maximum is `+∞`, which is not below itself. -/
theorem real_of_abs_lt_top (x : EReal) (h : max x (-x) < ⊤) : ∃ r : ℝ, x = (r : EReal) := by
  induction x using EReal.rec with
  | bot => exact absurd h (by rw [EReal.neg_bot, max_eq_right bot_le]; exact lt_irrefl _)
  | coe r => exact ⟨r, rfl⟩
  | top => exact absurd h (by rw [max_eq_left le_top]; exact lt_irrefl _)

/-- A one-bit word made from a truth value is 1 only when the truth value is true. -/
theorem ofBool_eq_one (b : Bool) (h : BitVec.ofBool b = 1#1) : b = true := by
  cases b
  · exact absurd h (by decide)
  · rfl

/-- The ordered "less than" comparison of two extended reals answers 1 only when the first is below the second. -/
theorem lt_of_cmp_olt (a b : EReal) (h : Ideal.cmp .olt a b = 1#1) : a < b := by
  have h2 : decide (a < b) = true := ofBool_eq_one _ h
  exact of_decide_eq_true h2

/-- One entry of the compared array: if the comparison of the entry's absolute value with the pattern of `+∞`
    answers 1, the entry is a real number. -/
theorem real_of_entry (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_bits] at h1
  exact real_of_abs_lt_top x (lt_of_cmp_olt _ _ h1)

/-- An array all of whose entries have absolute value below `+∞` holds real numbers only. The hypothesis is the
    conjunction over all entries, written as the reduction by `and`, over every axis and into a shape with one index,
    of the array of comparison words; each word of a conjunction that is 1 is 1. -/
theorem real_of_all {s t u v : Shape} [Subsingleton t.Idx] {axes : List (Fin s.rank)}
    (x : FVec Ideal s .f32) (dims : Fin v.rank → Fin s.rank) (hb : v.BroadcastsInDim s dims)
    (init : IVec u 1) (hr : s.ReducesTo axes t) (hu : 0 < u.numel) (j : t.Idx)
    (e : Host.reduce IntOp.andi
        (Idealize.ShloMosaic.cmpf (F := Ideal) (φ := .f32) .olt (Host.absf (F := Ideal) (φ := .f32) x)
          (broadcastInDim s dims hb (Idealize.ShloMosaic.constant (F := Ideal) v .f32 0x7F800000#32)))
        init hr hu j = 1#1)
    (i : s.Idx) : ∃ r : ℝ, x i = (r : EReal) :=
  real_of_entry (x i) (Host.reduce_andi_all _ init hr hu j e i)

/-- The entrywise `and` of two arrays of one-bit words is 1 at an index exactly when both arrays are. -/
theorem andi_apply_eq_one {s : Shape} (x y : IVec s 1) (i : s.Idx) :
    Idealize.ShloMosaic.andi x y i = 1#1 ↔ x i = 1#1 ∧ y i = 1#1 := by
  show IntOp.andi (x i) (y i) = 1#1 ↔ x i = 1#1 ∧ y i = 1#1
  exact IntOp.andi_eq_one

/-- The precondition's predicate, all ones, decoded: it is the conjunction, array by array, of "every entry has absolute
    value below `+∞`", so every entry of each of the ten arrays is a real number. -/
theorem real_of_fn [Cert.Pre_finite_inputs.Facts]
    (a0 : FVec Ideal Cert.Pre_finite_inputs.S4x4096x768 .f32) (a1 : FVec Ideal Cert.Pre_finite_inputs.S64x768 .f32) (a2 : FVec Ideal Cert.Pre_finite_inputs.S64x768 .f32) (a3 : FVec Ideal Cert.Pre_finite_inputs.S64 .f32) (a4 : FVec Ideal Cert.Pre_finite_inputs.S32x768 .f32) (a5 : FVec Ideal Cert.Pre_finite_inputs.S32x768 .f32) (a6 : FVec Ideal Cert.Pre_finite_inputs.S32 .f32) (a7 : FVec Ideal Cert.Pre_finite_inputs.S16x768 .f32) (a8 : FVec Ideal Cert.Pre_finite_inputs.S16x768 .f32) (a9 : FVec Ideal Cert.Pre_finite_inputs.S16 .f32)
    (h : Cert.Pre_finite_inputs.fn (F := Ideal) a0 a1 a2 a3 a4 a5 a6 a7 a8 a9 = fun _ => 1#1) :
    (∀ i, ∃ r : ℝ, a0 i = (r : EReal)) ∧
    (∀ i, ∃ r : ℝ, a1 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) := by
  have e := congrFun h (fun a => a.elim0 : Cert.Pre_finite_inputs.S_.Idx)
  dsimp only [Cert.Pre_finite_inputs.fn, Cert.Pre_finite_inputs.fn_part1, Cert.Pre_finite_inputs.fn_part2] at e
  obtain ⟨e, e9⟩ := (andi_apply_eq_one _ _ _).1 e
  obtain ⟨e, e8⟩ := (andi_apply_eq_one _ _ _).1 e
  obtain ⟨e, e7⟩ := (andi_apply_eq_one _ _ _).1 e
  obtain ⟨e, e6⟩ := (andi_apply_eq_one _ _ _).1 e
  obtain ⟨e, e5⟩ := (andi_apply_eq_one _ _ _).1 e
  obtain ⟨e, e4⟩ := (andi_apply_eq_one _ _ _).1 e
  obtain ⟨e, e3⟩ := (andi_apply_eq_one _ _ _).1 e
  obtain ⟨e, e2⟩ := (andi_apply_eq_one _ _ _).1 e
  obtain ⟨e, e1⟩ := (andi_apply_eq_one _ _ _).1 e
  exact ⟨real_of_all a0 _ _ _ _ _ _ e,
    real_of_all a1 _ _ _ _ _ _ e1,
    real_of_all a2 _ _ _ _ _ _ e2,
    real_of_all a3 _ _ _ _ _ _ e3,
    real_of_all a4 _ _ _ _ _ _ e4,
    real_of_all a5 _ _ _ _ _ _ e5,
    real_of_all a6 _ _ _ _ _ _ e6,
    real_of_all a7 _ _ _ _ _ _ e7,
    real_of_all a8 _ _ _ _ _ _ e8,
    real_of_all a9 _ _ _ _ _ _ e9⟩

/-- Each argument array of the idealized kernel, on each core, holds reals only. -/
theorem real_of_pre [Cert.Pre_finite_inputs.Facts] (m : (ℓ : Loc nD τ sig) → Buf (Elt Ideal) ℓ)
    (h : Cert.Pre_KernelIdeal m) (c : Dev nD) :
    (∀ i, ∃ r : ℝ, (m ((c.tc : Thread nD τ).loc main_arg0) : S4x4096x768.Idx → EReal) i = (r : EReal)) ∧
    (∀ i, ∃ r : ℝ, (m ((c.tc : Thread nD τ).loc main_arg1) : S64x768.Idx → EReal) i = (r : EReal)) ∧
    (∀ i, ∃ r : ℝ, (m ((c.tc : Thread nD τ).loc main_arg2) : S64x768.Idx → EReal) i = (r : EReal)) ∧
    (∀ i, ∃ r : ℝ, (m ((c.tc : Thread nD τ).loc main_arg3) : S64.Idx → EReal) i = (r : EReal)) ∧
    (∀ i, ∃ r : ℝ, (m ((c.tc : Thread nD τ).loc main_arg4) : S32x768.Idx → EReal) i = (r : EReal)) ∧
    (∀ i, ∃ r : ℝ, (m ((c.tc : Thread nD τ).loc main_arg5) : S32x768.Idx → EReal) i = (r : EReal)) ∧
    (∀ i, ∃ r : ℝ, (m ((c.tc : Thread nD τ).loc main_arg6) : S32.Idx → EReal) i = (r : EReal)) ∧
    (∀ i, ∃ r : ℝ, (m ((c.tc : Thread nD τ).loc main_arg7) : S16x768.Idx → EReal) i = (r : EReal)) ∧
    (∀ i, ∃ r : ℝ, (m ((c.tc : Thread nD τ).loc main_arg8) : S16x768.Idx → EReal) i = (r : EReal)) ∧
    (∀ i, ∃ r : ℝ, (m ((c.tc : Thread nD τ).loc main_arg9) : S16.Idx → EReal) i = (r : EReal)) :=
  real_of_fn _ _ _ _ _ _ _ _ _ _ (h c)

end Cert.KernelIdeal.Finite

end
-- ==== Proof.lean ====
/-
  The fused hierarchical-memory read against its level-by-level reference.

  The kernel stacks the three levels' keys, values and salience along one axis of 128 lanes (64 + 32 + 16 slots and 16
  lanes of zeros), scores every query row against all lanes with one product, takes each level's softmax over the 128
  lanes with the lanes outside the level masked, adds the three, weighs by the level weight and multiplies by the
  stacked values. The reference reads the three levels one after the other and adds the weighted reads.

  On the extended reals, with every input entry real: a masked lane's score is `⊥`, so it drops out of the row maximum
  and its exponential is `0`; the padding lanes therefore carry weight `0` and their zero values contribute nothing;
  the kernel's scale, read as the exact reciprocal `524288 / 14529495` of the reference's divisor, makes the product
  the quotient; and the level weight moves across the finite sums. So both programs end with the same array, index by
  index (`algebraic`). Each program runs to its end, faults nowhere and leaves its arguments as launched (the three
  frames), and the idealized kernel differs from the kernel in four named constants, each read as the table says
  (`preserves`).
-/
import proofs.«102644_g850403525362_cont_9to1_m_493_4_alg».proof.Defs
import proofs.«102644_g850403525362_cont_9to1_m_493_4_alg».proof.Proof.Gen.Kernel
import proofs.«102644_g850403525362_cont_9to1_m_493_4_alg».proof.Proof.Gen.KernelIdeal
import proofs.«102644_g850403525362_cont_9to1_m_493_4_alg».proof.Proof.Gen.ReferenceIdeal
import proofs.«102644_g850403525362_cont_9to1_m_493_4_alg».proof.Proof.Gen.Pre_finite_inputs
import proofs.«102644_g850403525362_cont_9to1_m_493_4_alg».proof.Proof.Gen.ReferenceIdeal.Run
import proofs.«102644_g850403525362_cont_9to1_m_493_4_alg».proof.Proof.Gen.ReferenceIdeal.Read
import proofs.«102644_g850403525362_cont_9to1_m_493_4_alg».proof.Proof.BitsFrame
import proofs.«102644_g850403525362_cont_9to1_m_493_4_alg».proof.Proof.IdealFrame
import proofs.«102644_g850403525362_cont_9to1_m_493_4_alg».proof.Proof.KernelValue
import proofs.«102644_g850403525362_cont_9to1_m_493_4_alg».proof.Proof.KernelRow
import proofs.«102644_g850403525362_cont_9to1_m_493_4_alg».proof.Proof.RowsReal
import proofs.«102644_g850403525362_cont_9to1_m_493_4_alg».proof.Proof.RefRead
import proofs.«102644_g850403525362_cont_9to1_m_493_4_alg».proof.Proof.Finite
import Idealize.ShloMosaic.Adequacy
import Idealize.ShloMosaic.Init
import Idealize.ShloMosaic.Lib.ValueIdx

noncomputable section

namespace Cert.Proof

open Idealize.ShloMosaic Idealize.ShloMosaic.TcCoe Idealize.SL.Sem Idealize.ShloMosaic.ValueIdx

/-! ## The frames -/

theorem frame_p : Cert.frame_Kernel := fun m ρ _ => Cert.Kernel.Around.frame m ρ
theorem frame_pi : Cert.frame_KernelIdeal := fun m ρ _ => Cert.KernelIdeal.Around.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The idealization -/

/-- The four named constants: the scale denotes `524288 / 14529495`, the three mask fills denote `⊥`. -/
theorem preserves : Cert.preserves_Kernel_KernelIdeal :=
  ⟨IdealRules.named_const.statement Cert.KernelIdeal.κ "inv_sqrt_d" .f32 0x3D13CD3A#32 ((524288 / 14529495 : ℝ) : EReal) rfl,
    IdealRules.named_const.statement Cert.KernelIdeal.κ "neg_big" .f32 0xF149F2CA#32 ⊥ rfl,
    IdealRules.named_const.statement Cert.KernelIdeal.κ "neg_big" .f32 0xF149F2CA#32 ⊥ rfl,
    IdealRules.named_const.statement Cert.KernelIdeal.κ "neg_big" .f32 0xF149F2CA#32 ⊥ rfl⟩

/-! ## The two results are one array -/

/-- With every input entry real, the reference's last stage at the launch arrays is, index by index, the kernel's result
    buffer: at `(b, t, d)` the one is the read level by level, the other the read over 128 lanes, of the same query row. -/
theorem results_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v63 (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = StableHlo.after (List.flatten [Cert.KernelIdeal.Gen.hostOps1 (F := Ideal)]) (Cert.KernelIdeal.Around.atExit m c)
          (Proc.devRef .tc Cert.KernelIdeal.main_v11) := by
  funext i
  obtain ⟨b, t, d, rfl⟩ : ∃ (b : Fin 4) (t : Fin 4096) (d : Fin 768), i = ix3 b t d := ⟨i 0, i 1, i 2, eq_ix3 i⟩
  obtain ⟨h0, h1, h2, h3, h4, h5, h6, h7, h8, h9⟩ := Cert.KernelIdeal.Finite.real_of_pre m hpre c
  rw [Cert.ReferenceIdeal.RowRead.ref_apply]
  refine Eq.trans ?_ (Cert.KernelIdeal.Around.result_apply m c b t d).symm
  exact (Cert.Spec.kernRow_eq_refRow_of_real
    (fun e => (m ((c.tc : Thread Cert.KernelIdeal.nD Cert.KernelIdeal.τ).loc Cert.KernelIdeal.main_arg0) : Cert.KernelIdeal.S4x4096x768.Idx → EReal) (ix3 b t e))
    (fun a e => (m ((c.tc : Thread Cert.KernelIdeal.nD Cert.KernelIdeal.τ).loc Cert.KernelIdeal.main_arg1) : Cert.KernelIdeal.S64x768.Idx → EReal) (ix2 a e))
    (fun a => (m ((c.tc : Thread Cert.KernelIdeal.nD Cert.KernelIdeal.τ).loc Cert.KernelIdeal.main_arg2) : Cert.KernelIdeal.S64x768.Idx → EReal) (ix2 a d))
    (fun a => (m ((c.tc : Thread Cert.KernelIdeal.nD Cert.KernelIdeal.τ).loc Cert.KernelIdeal.main_arg3) : Cert.KernelIdeal.S64.Idx → EReal) (ix1 a))
    (fun a e => (m ((c.tc : Thread Cert.KernelIdeal.nD Cert.KernelIdeal.τ).loc Cert.KernelIdeal.main_arg4) : Cert.KernelIdeal.S32x768.Idx → EReal) (ix2 a e))
    (fun a => (m ((c.tc : Thread Cert.KernelIdeal.nD Cert.KernelIdeal.τ).loc Cert.KernelIdeal.main_arg5) : Cert.KernelIdeal.S32x768.Idx → EReal) (ix2 a d))
    (fun a => (m ((c.tc : Thread Cert.KernelIdeal.nD Cert.KernelIdeal.τ).loc Cert.KernelIdeal.main_arg6) : Cert.KernelIdeal.S32.Idx → EReal) (ix1 a))
    (fun a e => (m ((c.tc : Thread Cert.KernelIdeal.nD Cert.KernelIdeal.τ).loc Cert.KernelIdeal.main_arg7) : Cert.KernelIdeal.S16x768.Idx → EReal) (ix2 a e))
    (fun a => (m ((c.tc : Thread Cert.KernelIdeal.nD Cert.KernelIdeal.τ).loc Cert.KernelIdeal.main_arg8) : Cert.KernelIdeal.S16x768.Idx → EReal) (ix2 a d))
    (fun a => (m ((c.tc : Thread Cert.KernelIdeal.nD Cert.KernelIdeal.τ).loc Cert.KernelIdeal.main_arg9) : Cert.KernelIdeal.S16.Idx → EReal) (ix1 a))
    (fun e => h0 _) (fun a e => h1 _) (fun a => h2 _) (fun a => h3 _)
    (fun a e => h4 _) (fun a => h5 _) (fun a => h6 _)
    (fun a e => h7 _) (fun a => h8 _) (fun a => h9 _)).symm

/-- From memories agreeing on the arguments both idealized programs run to their ends, with one result array and the
    arguments unchanged. -/
theorem algebraic : Cert.algebraic_KernelIdeal_ReferenceIdeal := by
  intro m ρ m' ρ' hpre hagree
  refine ⟨fun c => StableHlo.after (List.flatten [Cert.KernelIdeal.Gen.hostOps1 (F := Ideal)]) (Cert.KernelIdeal.Around.atExit m c)
      (Proc.devRef .tc Cert.KernelIdeal.main_v11), Cert.KernelIdeal.Around.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v63_eq, a0, a1, a2, a3, a4, a5, a6, a7, a8, a9]
  exact results_agree m hpre c

/-! ## The claim -/

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
